-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x8192 : Shape := ⟨3, ![32, 256, 8192]⟩
abbrev S32x2048x1 : Shape := ⟨3, ![32, 2048, 1]⟩
abbrev S_ : Shape := ⟨0, ![]⟩

class Facts : Prop where
  bcast_S_S32x256x8192 : S_.BroadcastsInDim S32x256x8192 (![] : Fin 0 → Fin S32x256x8192.rank)
  reducesTo_S32x256x8192_S_d0_1_2 : S32x256x8192.ReducesTo [0, 1, 2] S_
  h_S_ : 0 < S_.numel
  bcast_S_S32x2048x1 : S_.BroadcastsInDim S32x2048x1 (![] : Fin 0 → Fin S32x2048x1.rank)
  reducesTo_S32x2048x1_S_d0_1_2 : S32x2048x1.ReducesTo [0, 1, 2] S_

variable [Facts]

def fn {F : FTy → Type} [FloatOps F] (main_arg0 : FVec F S32x256x8192 .f32) (main_arg1 : FVec F S32x2048x1 .f32) (main_arg2 : FVec F S32x2048x1 .f32) : IVec S_ 1 :=
  let main_v0 : FVec F S32x256x8192 .f32 := Host.absf main_arg0
  let main_cst : FVec F S_ .f32 := constant S_ .f32 0x7F800000#32
  let main_v1 : FVec F S32x256x8192 .f32 := broadcastInDim S32x256x8192 ![] bcast_S_S32x256x8192 main_cst
  let main_v2 : IVec S32x256x8192 1 := cmpf .olt main_v0 main_v1
  let main_c : IVec S_ 1 := constantI S_ 1 1#1
  let main_v3 : IVec S_ 1 := (fun x v => Host.reduce IntOp.andi x v reducesTo_S32x256x8192_S_d0_1_2 h_S_) main_v2 main_c
  let main_v4 : FVec F S32x2048x1 .f32 := Host.absf main_arg1
  let main_cst_0 : FVec F S_ .f32 := constant S_ .f32 0x7F800000#32
  let main_v5 : FVec F S32x2048x1 .f32 := broadcastInDim S32x2048x1 ![] bcast_S_S32x2048x1 main_cst_0
  let main_v6 : IVec S32x2048x1 1 := cmpf .olt main_v4 main_v5
  let main_c_1 : IVec S_ 1 := constantI S_ 1 1#1
  let main_v7 : IVec S_ 1 := (fun x v => Host.reduce IntOp.andi x v reducesTo_S32x2048x1_S_d0_1_2 h_S_) main_v6 main_c_1
  let main_v8 : IVec S_ 1 := andi main_v3 main_v7
  let main_v9 : FVec F S32x2048x1 .f32 := Host.absf main_arg2
  let main_cst_2 : FVec F S_ .f32 := constant S_ .f32 0x7F800000#32
  let main_v10 : FVec F S32x2048x1 .f32 := broadcastInDim S32x2048x1 ![] bcast_S_S32x2048x1 main_cst_2
  let main_v11 : IVec S32x2048x1 1 := cmpf .olt main_v9 main_v10
  let main_c_3 : IVec S_ 1 := constantI S_ 1 1#1
  let main_v12 : IVec S_ 1 := (fun x v => Host.reduce IntOp.andi x v reducesTo_S32x2048x1_S_d0_1_2 h_S_) main_v11 main_c_3
  let main_v13 : IVec S_ 1 := andi main_v8 main_v12
  main_v13
-- ==== Kernel.lean ====
abbrev S32x256x8192 : Shape := ⟨3, ![32, 256, 8192]⟩
abbrev S32x2048x1 : Shape := ⟨3, ![32, 2048, 1]⟩
abbrev S32x2048 : Shape := ⟨2, ![32, 2048]⟩
abbrev S_ : Shape := ⟨0, ![]⟩
abbrev S32x2048x256 : Shape := ⟨3, ![32, 2048, 256]⟩
abbrev S1x256x1024 : Shape := ⟨3, ![1, 256, 1024]⟩
abbrev S1x2048x1 : Shape := ⟨3, ![1, 2048, 1]⟩
abbrev S1x2048x256 : Shape := ⟨3, ![1, 2048, 256]⟩
abbrev S2048x256 : Shape := ⟨2, ![2048, 256]⟩
abbrev S256x1024 : Shape := ⟨2, ![256, 1024]⟩
abbrev S1024x256 : Shape := ⟨2, ![1024, 256]⟩
abbrev S1x1024 : Shape := ⟨2, ![1, 1024]⟩
abbrev S1x512x1 : Shape := ⟨3, ![1, 512, 1]⟩
abbrev S512x1 : Shape := ⟨2, ![512, 1]⟩
abbrev S512x1024 : Shape := ⟨2, ![512, 1024]⟩
abbrev S512x256 : Shape := ⟨2, ![512, 256]⟩

abbrev nBuf : Space → Nat
  | .hbm => 47
  | .vmem => 13
  | .smem => 0
  | _ => 0

abbrev bufTy : (tb : Table) → Fin (tcTables nBuf tb) → BufTy
  | .hbm, ⟨0, _⟩ => ⟨S32x256x8192, .f32⟩
  | .hbm, ⟨1, _⟩ => ⟨S32x2048x1, .f32⟩
  | .hbm, ⟨2, _⟩ => ⟨S32x2048x1, .f32⟩
  | .hbm, ⟨3, _⟩ => ⟨S32x2048, .f32⟩
  | .hbm, ⟨4, _⟩ => ⟨S32x2048, .f32⟩
  | .hbm, ⟨5, _⟩ => ⟨S_, .f32⟩
  | .hbm, ⟨6, _⟩ => ⟨S32x2048, .f32⟩
  | .hbm, ⟨7, _⟩ => ⟨S32x2048, .f32⟩
  | .hbm, ⟨8, _⟩ => ⟨S32x2048, .f32⟩
  | .hbm, ⟨9, _⟩ => ⟨S_, .f32⟩
  | .hbm, ⟨10, _⟩ => ⟨S_, .i32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S_, .f32⟩
  | .hbm, ⟨15, _⟩ => ⟨S32x2048, .f32⟩
  | .hbm, ⟨16, _⟩ => ⟨S32x2048, .f32⟩
  | .hbm, ⟨17, _⟩ => ⟨S32x2048, .f32⟩
  | .hbm, ⟨18, _⟩ => ⟨S32x2048, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S32x2048, .i32⟩
  | .hbm, ⟨23, _⟩ => ⟨S32x2048, .i32⟩
  | .hbm, ⟨24, _⟩ => ⟨S_, .i32⟩
  | .hbm, ⟨25, _⟩ => ⟨S32x2048, .i32⟩
  | .hbm, ⟨26, _⟩ => ⟨S32x2048, .i32⟩
  | .hbm, ⟨27, _⟩ => ⟨S32x2048, .f32⟩
  | .hbm, ⟨28, _⟩ => ⟨S32x2048, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S32x2048, .i32⟩
  | .hbm, ⟨33, _⟩ => ⟨S32x2048, .i32⟩
  | .hbm, ⟨34, _⟩ => ⟨S_, .i32⟩
  | .hbm, ⟨35, _⟩ => ⟨S32x2048, .i32⟩
  | .hbm, ⟨36, _⟩ => ⟨S32x2048, .i32⟩
  | .hbm, ⟨37, _⟩ => ⟨S32x2048, .f32⟩
  | .hbm, ⟨38, _⟩ => ⟨S32x2048, .f32⟩
  | .hbm, ⟨39, _⟩ => ⟨S_, .f32⟩
  | .hbm, ⟨40, _⟩ => ⟨S32x2048, .f32⟩
  | .hbm, ⟨41, _⟩ => ⟨S32x2048, .f32⟩
  | .hbm, ⟨42, _⟩ => ⟨S32x2048x1, .i32⟩
  | .hbm, ⟨43, _⟩ => ⟨S32x2048x1, .i32⟩
  | .hbm, ⟨44, _⟩ => ⟨S32x2048x1, .f32⟩
  | .hbm, ⟨45, _⟩ => ⟨S32x2048x1, .f32⟩
  | .hbm, ⟨46, _⟩ => ⟨S32x2048x256, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1, .i32⟩
  | .local _ .vmem, ⟨3, _⟩ => ⟨S1x2048x1, .i32⟩
  | .local _ .vmem, ⟨4, _⟩ => ⟨S1x2048x1, .i32⟩
  | .local _ .vmem, ⟨5, _⟩ => ⟨S1x2048x1, .i32⟩
  | .local _ .vmem, ⟨6, _⟩ => ⟨S1x2048x1, .f32⟩
  | .local _ .vmem, ⟨7, _⟩ => ⟨S1x2048x1, .f32⟩
  | .local _ .vmem, ⟨8, _⟩ => ⟨S1x2048x1, .f32⟩
  | .local _ .vmem, ⟨9, _⟩ => ⟨S1x2048x1, .f32⟩
  | .local _ .vmem, ⟨10, _⟩ => ⟨S1x2048x256, .f32⟩
  | .local _ .vmem, ⟨11, _⟩ => ⟨S1x2048x256, .f32⟩
  | .local _ .vmem, ⟨12, _⟩ => ⟨S2048x256, .f32⟩
  | _, _ => ⟨S32x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_c_4 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_5 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

@[reducible] def k0_t1_loop : Scf.Loop 32 :=
  let c0_i32_3 : BitVec 32 := 0#32
  let c4_i32 : BitVec 32 := 4#32
  let v11 : BitVec 32 := Scalar.addi c0_i32_3 c4_i32
  let c1_i32 : BitVec 32 := 1#32
  ⟨c0_i32_3, v11, c1_i32⟩
def k0_mult1 (k0_t1 : Fin k0_t1_loop.trips) : BitVec 32 :=
  let c0_i32_7 : BitVec 32 := 0#32
  let c0_i32_3 : BitVec 32 := 0#32
  let c1_i32 : BitVec 32 := 1#32
  let arg9 : BitVec 32 := Scf.iv c0_i32_3 c1_i32 k0_t1
  let c1_i32_6 : BitVec 32 := 1#32
  let v15 : BitVec 32 := Scalar.muli arg9 c1_i32_6
  let v16 : BitVec 32 := Scalar.addi c0_i32_7 v15
  let c512_i32 : BitVec 32 := 512#32
  let v17 : BitVec 32 := Scalar.muli v16 c512_i32
  v17
def k0_off1 (k0_t1 : Fin k0_t1_loop.trips) : Fin 3 → Nat :=
  let c0_8 : Index := 0#32
  let c0_i32_7 : BitVec 32 := 0#32
  let c0_i32_3 : BitVec 32 := 0#32
  let c1_i32 : BitVec 32 := 1#32
  let arg9 : BitVec 32 := Scf.iv c0_i32_3 c1_i32 k0_t1
  let c1_i32_6 : BitVec 32 := 1#32
  let v15 : BitVec 32 := Scalar.muli arg9 c1_i32_6
  let v16 : BitVec 32 := Scalar.addi c0_i32_7 v15
  let c512_i32 : BitVec 32 := 512#32
  let v17 : BitVec 32 := Scalar.muli v16 c512_i32
  let v18 : BitVec 32 := v17
  let v19 : Index := Scalar.indexCast v18
  let c0_9 : Index := 0#32
  ![0, v19.toNat, 0]
def k0_off2 (k0_t1 : Fin k0_t1_loop.trips) : Fin 2 → Nat :=
  let c0_i32_7 : BitVec 32 := 0#32
  let c0_i32_3 : BitVec 32 := 0#32
  let c1_i32 : BitVec 32 := 1#32
  let arg9 : BitVec 32 := Scf.iv c0_i32_3 c1_i32 k0_t1
  let c1_i32_6 : BitVec 32 := 1#32
  let v15 : BitVec 32 := Scalar.muli arg9 c1_i32_6
  let v16 : BitVec 32 := Scalar.addi c0_i32_7 v15
  let c512_i32 : BitVec 32 := 512#32
  let v17 : BitVec 32 := Scalar.muli v16 c512_i32
  let v18 : BitVec 32 := v17
  let v48 : Index := Scalar.indexCast v18
  let c0_18 : Index := 0#32
  ![v48.toNat, 0]
def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_5 : BitVec 32 := 0#32
  let v14 : BitVec 1 := Scalar.cmpi .ne v13 c0_i32_5
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S32x2048x1_S32x2048 : S32x2048x1.ShapeCasts S32x2048
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  transposes_S256x1024_p1_0_S1024x256 : S256x1024.Transposes [1, 0] S1024x256
  iota_S1x1024_d1_w32 : S1x1024.Iotas .tc 32 [1]
  h_S1x512x1 : 0 < S1x512x1.numel
  shapeCasts_S1x512x1_S512x1 : S1x512x1.ShapeCasts S512x1
  broadcasts_S512x1_S512x1024 : S512x1.Broadcasts S512x1024
  broadcasts_S1x1024_S512x1024 : S1x1024.Broadcasts S512x1024
  shapeCasts_S512x1_S512x1 : S512x1.ShapeCasts S512x1
  h_S512x256 : 0 < S512x256.numel
  shapeCasts_S512x256_S512x256 : S512x256.ShapeCasts S512x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  dot_S512x1024_S1024x256_S512x256_1_0_0_1_n_n_wf : DotDims.WF S512x1024 S1024x256 S512x256 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x1.size a ≤ S1x2048x1.size a
  k0_off2_inb : ∀ k0_t1 : Fin k0_t1_loop.trips, ∀ a, (k0_off2 k0_t1) a + S512x256.size a ≤ S2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x8192.size a
  hwx0_0 : ∀ i : grid0.Coords, EltTy.bits .f32 = 32 ∨ (Rect.block (s := S32x256x8192) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S32x2048x1.size a
  hwx0_1 : ∀ i : grid0.Coords, EltTy.bits .i32 = 32 ∨ (Rect.block (s := S32x2048x1) S1x2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S32x2048x1.size a
  hwx0_2 : ∀ i : grid0.Coords, EltTy.bits .i32 = 32 ∨ (Rect.block (s := S32x2048x1) S1x2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S32x2048x1.size a
  hwx0_3 : ∀ i : grid0.Coords, EltTy.bits .f32 = 32 ∨ (Rect.block (s := S32x2048x1) S1x2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1.size a ≤ S32x2048x1.size a
  hwx0_4 : ∀ i : grid0.Coords, EltTy.bits .f32 = 32 ∨ (Rect.block (s := S32x2048x1) S1x2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x256.size a ≤ S32x2048x256.size a
  hwx0_5 : ∀ i : grid0.Coords, EltTy.bits .f32 = 32 ∨ (Rect.block (s := S32x2048x256) S1x2048x256.size (cc0_transform_5 i) (hinb0_5 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S32x256x8192 : Shape := ⟨3, ![32, 256, 8192]⟩
abbrev S32x2048x1 : Shape := ⟨3, ![32, 2048, 1]⟩
abbrev S32x2048 : Shape := ⟨2, ![32, 2048]⟩
abbrev S_ : Shape := ⟨0, ![]⟩
abbrev S32x1x2048 : Shape := ⟨3, ![32, 1, 2048]⟩
abbrev S1 : Shape := ⟨1, ![1]⟩
abbrev S1x1x1 : Shape := ⟨3, ![1, 1, 1]⟩
abbrev S32x256x2048 : Shape := ⟨3, ![32, 256, 2048]⟩
abbrev S32x2048x256 : Shape := ⟨3, ![32, 2048, 256]⟩

abbrev nBuf : Space → Nat
  | .hbm => 98
  | .vmem => 0
  | .smem => 0
  | _ => 0

abbrev bufTy : (tb : Table) → Fin (tcTables nBuf tb) → BufTy
  | .hbm, ⟨0, _⟩ => ⟨S32x256x8192, .f32⟩
  | .hbm, ⟨1, _⟩ => ⟨S32x2048x1, .f32⟩
  | .hbm, ⟨2, _⟩ => ⟨S32x2048x1, .f32⟩
  | .hbm, ⟨3, _⟩ => ⟨S32x2048, .f32⟩
  | .hbm, ⟨4, _⟩ => ⟨S32x2048, .f32⟩
  | .hbm, ⟨5, _⟩ => ⟨S_, .f32⟩
  | .hbm, ⟨6, _⟩ => ⟨S32x2048, .f32⟩
  | .hbm, ⟨7, _⟩ => ⟨S32x2048, .f32⟩
  | .hbm, ⟨8, _⟩ => ⟨S32x2048, .f32⟩
  | .hbm, ⟨9, _⟩ => ⟨S_, .f32⟩
  | .hbm, ⟨10, _⟩ => ⟨S_, .i32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S_, .f32⟩
  | .hbm, ⟨15, _⟩ => ⟨S32x2048, .f32⟩
  | .hbm, ⟨16, _⟩ => ⟨S32x2048, .f32⟩
  | .hbm, ⟨17, _⟩ => ⟨S32x2048, .f32⟩
  | .hbm, ⟨18, _⟩ => ⟨S32x2048, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S32x2048, .i32⟩
  | .hbm, ⟨23, _⟩ => ⟨S32x2048, .i32⟩
  | .hbm, ⟨24, _⟩ => ⟨S_, .i32⟩
  | .hbm, ⟨25, _⟩ => ⟨S32x2048, .i32⟩
  | .hbm, ⟨26, _⟩ => ⟨S32x2048, .i32⟩
  | .hbm, ⟨27, _⟩ => ⟨S32x2048, .f32⟩
  | .hbm, ⟨28, _⟩ => ⟨S32x2048, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S32x2048, .i32⟩
  | .hbm, ⟨33, _⟩ => ⟨S32x2048, .i32⟩
  | .hbm, ⟨34, _⟩ => ⟨S_, .i32⟩
  | .hbm, ⟨35, _⟩ => ⟨S32x2048, .i32⟩
  | .hbm, ⟨36, _⟩ => ⟨S32x2048, .i32⟩
  | .hbm, ⟨37, _⟩ => ⟨S32x2048, .f32⟩
  | .hbm, ⟨38, _⟩ => ⟨S32x2048, .f32⟩
  | .hbm, ⟨39, _⟩ => ⟨S_, .f32⟩
  | .hbm, ⟨40, _⟩ => ⟨S32x2048, .f32⟩
  | .hbm, ⟨41, _⟩ => ⟨S32x2048, .f32⟩
  | .hbm, ⟨42, _⟩ => ⟨S32x1x2048, .i32⟩
  | .hbm, ⟨43, _⟩ => ⟨S_, .i32⟩
  | .hbm, ⟨44, _⟩ => ⟨S32x1x2048, .i32⟩
  | .hbm, ⟨45, _⟩ => ⟨S32x1x2048, .i1⟩
  | .hbm, ⟨46, _⟩ => ⟨S_, .i32⟩
  | .hbm, ⟨47, _⟩ => ⟨S32x1x2048, .i32⟩
  | .hbm, ⟨48, _⟩ => ⟨S32x1x2048, .i32⟩
  | .hbm, ⟨49, _⟩ => ⟨S32x1x2048, .i32⟩
  | .hbm, ⟨50, _⟩ => ⟨S32x2048x1, .i32⟩
  | .hbm, ⟨51, _⟩ => ⟨S1, .i32⟩
  | .hbm, ⟨52, _⟩ => ⟨S_, .i32⟩
  | .hbm, ⟨53, _⟩ => ⟨S32x2048x1, .i32⟩
  | .hbm, ⟨54, _⟩ => ⟨S32x2048x1, .i1⟩
  | .hbm, ⟨55, _⟩ => ⟨S1x1x1, .i32⟩
  | .hbm, ⟨56, _⟩ => ⟨S32x2048x1, .i32⟩
  | .hbm, ⟨57, _⟩ => ⟨S32x2048x1, .i1⟩
  | .hbm, ⟨58, _⟩ => ⟨S32x2048x1, .i1⟩
  | .hbm, ⟨59, _⟩ => ⟨S_, .i1⟩
  | .hbm, ⟨60, _⟩ => ⟨S32x2048, .i1⟩
  | .hbm, ⟨61, _⟩ => ⟨S32x256x2048, .f32⟩
  | .hbm, ⟨62, _⟩ => ⟨S32x256x2048, .i1⟩
  | .hbm, ⟨63, _⟩ => ⟨S_, .f32⟩
  | .hbm, ⟨64, _⟩ => ⟨S32x256x2048, .f32⟩
  | .hbm, ⟨65, _⟩ => ⟨S32x256x2048, .f32⟩
  | .hbm, ⟨66, _⟩ => ⟨S32x1x2048, .i32⟩
  | .hbm, ⟨67, _⟩ => ⟨S_, .i32⟩
  | .hbm, ⟨68, _⟩ => ⟨S32x1x2048, .i32⟩
  | .hbm, ⟨69, _⟩ => ⟨S32x1x2048, .i1⟩
  | .hbm, ⟨70, _⟩ => ⟨S_, .i32⟩
  | .hbm, ⟨71, _⟩ => ⟨S32x1x2048, .i32⟩
  | .hbm, ⟨72, _⟩ => ⟨S32x1x2048, .i32⟩
  | .hbm, ⟨73, _⟩ => ⟨S32x1x2048, .i32⟩
  | .hbm, ⟨74, _⟩ => ⟨S32x2048x1, .i32⟩
  | .hbm, ⟨75, _⟩ => ⟨S1, .i32⟩
  | .hbm, ⟨76, _⟩ => ⟨S_, .i32⟩
  | .hbm, ⟨77, _⟩ => ⟨S32x2048x1, .i32⟩
  | .hbm, ⟨78, _⟩ => ⟨S32x2048x1, .i1⟩
  | .hbm, ⟨79, _⟩ => ⟨S1x1x1, .i32⟩
  | .hbm, ⟨80, _⟩ => ⟨S32x2048x1, .i32⟩
  | .hbm, ⟨81, _⟩ => ⟨S32x2048x1, .i1⟩
  | .hbm, ⟨82, _⟩ => ⟨S32x2048x1, .i1⟩
  | .hbm, ⟨83, _⟩ => ⟨S_, .i1⟩
  | .hbm, ⟨84, _⟩ => ⟨S32x2048, .i1⟩
  | .hbm, ⟨85, _⟩ => ⟨S32x256x2048, .f32⟩
  | .hbm, ⟨86, _⟩ => ⟨S32x256x2048, .i1⟩
  | .hbm, ⟨87, _⟩ => ⟨S_, .f32⟩
  | .hbm, ⟨88, _⟩ => ⟨S32x256x2048, .f32⟩
  | .hbm, ⟨89, _⟩ => ⟨S32x256x2048, .f32⟩
  | .hbm, ⟨90, _⟩ => ⟨S32x1x2048, .f32⟩
  | .hbm, ⟨91, _⟩ => ⟨S32x256x2048, .f32⟩
  | .hbm, ⟨92, _⟩ => ⟨S32x256x2048, .f32⟩
  | .hbm, ⟨93, _⟩ => ⟨S32x1x2048, .f32⟩
  | .hbm, ⟨94, _⟩ => ⟨S32x256x2048, .f32⟩
  | .hbm, ⟨95, _⟩ => ⟨S32x256x2048, .f32⟩
  | .hbm, ⟨96, _⟩ => ⟨S32x256x2048, .f32⟩
  | .hbm, ⟨97, _⟩ => ⟨S32x2048x256, .f32⟩
  | _, _ => ⟨S32x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_c_4 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_5 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_call3_c : Ref sig .tc := ⟨.hbm, 43, rfl⟩
abbrev main_call3_v0 : Ref sig .tc := ⟨.hbm, 44, rfl⟩
abbrev main_call3_v1 : Ref sig .tc := ⟨.hbm, 45, rfl⟩
abbrev main_call3_c_0 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_v5 : Ref sig .tc := ⟨.hbm, 50, rfl⟩
abbrev main_call3_c_1 : Ref sig .tc := ⟨.hbm, 51, rfl⟩
abbrev main_call3_c_2 : Ref sig .tc := ⟨.hbm, 52, rfl⟩
abbrev main_call3_v6 : Ref sig .tc := ⟨.hbm, 53, rfl⟩
abbrev main_call3_v7 : Ref sig .tc := ⟨.hbm, 54, rfl⟩
abbrev main_call3_v8 : Ref sig .tc := ⟨.hbm, 55, rfl⟩
abbrev main_call3_v9 : Ref sig .tc := ⟨.hbm, 56, rfl⟩
abbrev main_call3_v10 : Ref sig .tc := ⟨.hbm, 57, rfl⟩
abbrev main_call3_v11 : Ref sig .tc := ⟨.hbm, 58, rfl⟩
abbrev main_call3_c_3 : Ref sig .tc := ⟨.hbm, 59, rfl⟩
abbrev main_call3_v12 : Ref sig .tc := ⟨.hbm, 60, rfl⟩
abbrev main_call3_v13 : Ref sig .tc := ⟨.hbm, 61, rfl⟩
abbrev main_call3_v14 : Ref sig .tc := ⟨.hbm, 62, rfl⟩
abbrev main_call3_cst : Ref sig .tc := ⟨.hbm, 63, rfl⟩
abbrev main_call3_v15 : Ref sig .tc := ⟨.hbm, 64, rfl⟩
abbrev main_v17 : Ref sig .tc := ⟨.hbm, 65, rfl⟩
abbrev main_v18 : Ref sig .tc := ⟨.hbm, 66, rfl⟩
abbrev main_call4_c : Ref sig .tc := ⟨.hbm, 67, rfl⟩
abbrev main_call4_v0 : Ref sig .tc := ⟨.hbm, 68, rfl⟩
abbrev main_call4_v1 : Ref sig .tc := ⟨.hbm, 69, rfl⟩
abbrev main_call4_c_0 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_c_1 : Ref sig .tc := ⟨.hbm, 75, rfl⟩
abbrev main_call4_c_2 : Ref sig .tc := ⟨.hbm, 76, rfl⟩
abbrev main_call4_v6 : Ref sig .tc := ⟨.hbm, 77, rfl⟩
abbrev main_call4_v7 : Ref sig .tc := ⟨.hbm, 78, rfl⟩
abbrev main_call4_v8 : Ref sig .tc := ⟨.hbm, 79, rfl⟩
abbrev main_call4_v9 : Ref sig .tc := ⟨.hbm, 80, rfl⟩
abbrev main_call4_v10 : Ref sig .tc := ⟨.hbm, 81, rfl⟩
abbrev main_call4_v11 : Ref sig .tc := ⟨.hbm, 82, rfl⟩
abbrev main_call4_c_3 : Ref sig .tc := ⟨.hbm, 83, rfl⟩
abbrev main_call4_v12 : Ref sig .tc := ⟨.hbm, 84, rfl⟩
abbrev main_call4_v13 : Ref sig .tc := ⟨.hbm, 85, rfl⟩
abbrev main_call4_v14 : Ref sig .tc := ⟨.hbm, 86, rfl⟩
abbrev main_call4_cst : Ref sig .tc := ⟨.hbm, 87, rfl⟩
abbrev main_call4_v15 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩

abbrev nD : Nat := 1
abbrev τ : Topo := Topo.v7x

variable {F : FTy → Type} [FloatOps F]

class Facts₀ : Prop where
  shapeCasts_S32x2048x1_S32x2048 : S32x2048x1.ShapeCasts S32x2048
  bcast_S_S32x2048 : S_.BroadcastsInDim S32x2048 (![] : Fin 0 → Fin S32x2048.rank)
  bcast_S32x2048_S32x1x2048_0_2 : S32x2048.BroadcastsInDim S32x1x2048 (![0, 2] : Fin 2 → Fin S32x1x2048.rank)
  bcast_S_S32x1x2048 : S_.BroadcastsInDim S32x1x2048 (![] : Fin 0 → Fin S32x1x2048.rank)
  shapeCasts_S32x1x2048_S32x2048x1 : S32x1x2048.ShapeCasts S32x2048x1
  bcast_S_S32x2048x1 : S_.BroadcastsInDim S32x2048x1 (![] : Fin 0 → Fin S32x2048x1.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x2048_d2 : S32x2048x1.ReducesTo [2] S32x2048
  h_S_ : 0 < S_.numel
  bcast_S32x2048_S32x256x2048_0_2 : S32x2048.BroadcastsInDim S32x256x2048 (![0, 2] : Fin 2 → Fin S32x256x2048.rank)
  bcast_S_S32x256x2048 : S_.BroadcastsInDim S32x256x2048 (![] : Fin 0 → Fin S32x256x2048.rank)
  bcast_S32x1x2048_S32x256x2048_0_1_2 : S32x1x2048.BroadcastsInDim S32x256x2048 (![0, 1, 2] : Fin 3 → Fin S32x256x2048.rank)
  transposes_S32x256x2048_S32x2048x256_0_2_1 : S32x256x2048.Transposes [0, 2, 1] S32x2048x256
  gather_S32x256x8192_S32x2048x1_S32x256x2048_1_2_0_0_2_2_12561_wf : GatherDims.WF S32x256x8192 S32x2048x1 S32x256x2048 [1] [2] [0] [2] [0] 2 ![1, 256, 1]

variable [Facts₀]

def gather_S32x256x8192_S32x2048x1_S32x256x2048_1_2_0_0_2_2_12561 : GatherDims S32x256x8192 S32x2048x1 S32x256x2048 where
  offsetDims := [1]
  collapsedSliceDims := [2]
  operandBatchingDims := [0]
  startIndicesBatchingDims := [0]
  startIndexMap := [2]
  indexVectorDim := 2
  sliceSizes := ![1, 256, 1]
  wf := gather_S32x256x8192_S32x2048x1_S32x256x2048_1_2_0_0_2_2_12561_wf

class Facts : Prop extends Facts₀ where

variable [Facts]
-- ==== Proof.Spec.lean ====
/-
  The sampler's arithmetic, stated once for both programs.

  A sampling point with taps at positions a and b (32-bit words) and weights wa, wb contributes, against a row x of the
  input laid along the length axis, the sum over positions l of (wa where l = a, else 0) + (wb where l = b, else 0), times x l.
  The kernel forms that sum tile by tile: length-tile s covers positions s * 1024 + k for k < 1024, and the eight tiles' sums
  are added onto zero in order.
-/
import Idealize.ShloMosaic.PureOps.Ideal
import Idealize.ShloMosaic.Lib.ValueIdx

noncomputable section

namespace Cert.Sampler

open Idealize.ShloMosaic

/-- Position k of length-tile s as a 32-bit word: s * 1024 + k. -/
def lpos (s : ℕ) (k : Fin 1024) : BitVec 32 := BitVec.ofNat 32 s * 1024#32 + BitVec.ofNat 32 k.val

/-- One entry of the weighted one-hot row at position l: wa where the first tap a is l, plus wb where the second tap b is l. -/
def hot (a b : BitVec 32) (wa wb : EReal) (l : BitVec 32) : EReal :=
  (if a = l then wa else 0) + (if b = l then wb else 0)

/-- Length-tile s's contribution: the weighted one-hot row over the tile's 1024 positions against the tile's entries of x. -/
def tileSum (s : ℕ) (a b : BitVec 32) (wa wb : EReal) (x : Fin 1024 → EReal) : EReal :=
  ∑ k : Fin 1024, hot a b wa wb (lpos s k) * x k

/-- The eight tiles of a row of 8192 entries, added onto zero in order. -/
def rowSum (a b : BitVec 32) (wa wb : EReal) (x : Fin 8192 → EReal) : EReal :=
  0 + ∑ s ∈ Finset.range 8, tileSum s a b wa wb (fun k => x ⟨(s % 8) * 1024 + k.val, by have := k.isLt; have := Nat.mod_lt s (show 0 < 8 by decide); omega⟩)

end Cert.Sampler

end
-- ==== Proof.TilePayload.lean ====
/-
  What one trip of the chunk loop stores, read at an entry.

  Row p, column q of the stored 512 x 256 block is what the accumulator held there plus, over the 1024 positions of the
  point's length-tile, the weighted one-hot entry of row p's two taps times the input tile's entry (q, position):
  the comparison of the taps with the tile's positions, the two selects against zero, their sum, and the matrix product
  of that 512 x 1024 block with the transposed input tile; the changes of float format are the identity at the ideal values.
-/
import proofs.«149111_j50354196579100_1_alg».proof.Proof.Gen.KernelIdeal.Skeleton
import proofs.«149111_j50354196579100_1_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Predicate

noncomputable section

namespace Cert.Sampler

open Idealize.ShloMosaic Idealize.ShloMosaic.TcCoe Idealize.SL.Sem Idealize.ShloMosaic.ValueIdx
open Cert.KernelIdeal Cert.KernelIdeal.Gen

/-! ## Layout steps read at coordinates -/

/-- A column [a, 1] broadcast to [a, b] reads, at (p, c), the column's entry at row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 512, 1] block viewed as a column and broadcast along the 1024 positions reads row p's one entry. -/
private theorem column_apply {α : Type} (v : S1x512x1.Idx → α) (p : Fin 512) (k : Fin 1024) :
    broadcastTo S512x1024 (shapeCast S512x1 v shapeCasts_S1x512x1_S512x1) broadcasts_S512x1_S512x1024 (ix2 p k)
      = v (ix3 0 p 0) :=
  (broadcastTo_a1_ab_apply _ broadcasts_S512x1_S512x1024 p k).trans
    (shapeCast_1ab_ab_apply v shapeCasts_S1x512x1_S512x1 p 0)

/-- The tile's positions as 32-bit words, broadcast down the 512 rows: column k holds s * 1024 + k. -/
private theorem positions_apply (s : ℕ) (p : Fin 512) (k : Fin 1024) :
    broadcastTo S512x1024
        (addi (broadcast S1x1024 (Scalar.muli (BitVec.ofNat 32 s) 1024#32)) (iota .tc S1x1024 32 [1] iota_S1x1024_d1_w32))
        broadcasts_S1x1024_S512x1024 (ix2 p k)
      = lpos s k := by
  refine (broadcastTo_1b_ab_apply _ broadcasts_S1x1024_S512x1024 p k).trans ?_
  show IntOp.addi (Scalar.muli (BitVec.ofNat 32 s) 1024#32) (iota .tc S1x1024 32 [1] iota_S1x1024_d1_w32 (ix2 0 k)) = lpos s k
  rw [iota_single_apply]
  rfl

/-- The input tile, viewed [256, 1024], narrowed and transposed, reads at (k, q) the tile's entry (q, k). -/
private theorem tile_apply (v3 : FVec Ideal S1x256x1024 .f32) (k : Fin 1024) (q : Fin 256) :
    transpose S1024x256 [1, 0] (truncf .bf16 (shapeCast S256x1024 v3 shapeCasts_S1x256x1024_S256x1024) bitsLt_bf16_f32)
        transposes_S256x1024_p1_0_S1024x256 (ix2 k q)
      = v3 (ix3 0 q k) :=
  (transpose_ix2_apply _ transposes_S256x1024_p1_0_S1024x256 k q).trans
    ((truncf_apply _ bitsLt_bf16_f32 (ix2 q k)).trans (shapeCast_1ab_ab_apply v3 shapeCasts_S1x256x1024_S256x1024 q k))

/-! ## The matrix product's operand indices, axis by axis -/

private theorem lhs_dot_0 (j : S512x256.Idx) (k : dot_S512x1024_S1024x256_S512x256_1_0_0_1_n_n.contr.Idx) :
    (dot_S512x1024_S1024x256_S512x256_1_0_0_1_n_n.lhsIdx j k 0).val = (j 0).val := by
  unfold DotDims.lhsIdx
  rw [dif_neg (show ¬(0 : Fin S512x1024.rank) ∈ dot_S512x1024_S1024x256_S512x256_1_0_0_1_n_n.lhsBatch by decide),
    dif_pos (show (0 : Fin S512x1024.rank) ∈ dot_S512x1024_S1024x256_S512x256_1_0_0_1_n_n.lhsNonContracting by decide)]
  rfl

private theorem lhs_dot_1 (j : S512x256.Idx) (k : dot_S512x1024_S1024x256_S512x256_1_0_0_1_n_n.contr.Idx) :
    (dot_S512x1024_S1024x256_S512x256_1_0_0_1_n_n.lhsIdx j k 1).val = (k ⟨0, by decide⟩).val :=
  dot_S512x1024_S1024x256_S512x256_1_0_0_1_n_n.lhsIdx_val_of_single (cl := 1) rfl j k

private theorem rhs_dot_0 (j : S512x256.Idx) (k : dot_S512x1024_S1024x256_S512x256_1_0_0_1_n_n.contr.Idx) :
    (dot_S512x1024_S1024x256_S512x256_1_0_0_1_n_n.rhsIdx j k 0).val = (k ⟨0, by decide⟩).val :=
  dot_S512x1024_S1024x256_S512x256_1_0_0_1_n_n.rhsIdx_val_of_single (cr := 0) rfl j k

private theorem rhs_dot_1 (j : S512x256.Idx) (k : dot_S512x1024_S1024x256_S512x256_1_0_0_1_n_n.contr.Idx) :
    (dot_S512x1024_S1024x256_S512x256_1_0_0_1_n_n.rhsIdx j k 1).val = (j 1).val := by
  unfold DotDims.rhsIdx
  rw [dif_neg (show ¬(1 : Fin S1024x256.rank) ∈ dot_S512x1024_S1024x256_S512x256_1_0_0_1_n_n.rhsBatch by decide),
    dif_pos (show (1 : Fin S1024x256.rank) ∈ dot_S512x1024_S1024x256_S512x256_1_0_0_1_n_n.rhsNonContracting by decide)]
  rfl

/-- The product into the zero block, read at (p, q): the sum over the 1024 positions of left (p, k) times right (k, q). -/
private theorem product_apply (A : FVec Ideal S512x1024 .bf16) (B : FVec Ideal S1024x256 .bf16) (p : Fin 512) (q : Fin 256) :
    matmul (F := Ideal) dot_S512x1024_S1024x256_S512x256_1_0_0_1_n_n none A B (constant (F := Ideal) S512x256 .f32 0x00000000#32) (ix2 p q)
      = ∑ k : Fin 1024, A (ix2 p k) * B (ix2 k q) := by
  refine (Ideal.matmul_constant_zero_apply dot_S512x1024_S1024x256_S512x256_1_0_0_1_n_n none A B (ix2 p q)).trans ?_
  rw [← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have hl : dot_S512x1024_S1024x256_S512x256_1_0_0_1_n_n.lhsIdx (ix2 p q)
      ((contrEquiv1 dot_S512x1024_S1024x256_S512x256_1_0_0_1_n_n 1024 rfl rfl).symm k) = ix2 p k :=
    funext fun a => Fin.ext (by
      match a with
      | ⟨0, _⟩ => exact lhs_dot_0 _ _
      | ⟨1, _⟩ => exact (lhs_dot_1 _ _).trans hk)
  have hr : dot_S512x1024_S1024x256_S512x256_1_0_0_1_n_n.rhsIdx (ix2 p q)
      ((contrEquiv1 dot_S512x1024_S1024x256_S512x256_1_0_0_1_n_n 1024 rfl rfl).symm k) = ix2 k q :=
    funext fun a => Fin.ext (by
      match a with
      | ⟨0, _⟩ => exact (rhs_dot_0 _ _).trans hk
      | ⟨1, _⟩ => exact rhs_dot_1 _ _)
  rw [hl, hr]

/-! ## The weighted one-hot block read at an entry -/

/-- A select on "the two words are equal" is the `if` on their equality. -/
private theorem select_cmpi_eq (a l : BitVec 32) (w z : EReal) :
    Scalar.select (IntOp.cmpi .eq a l) w z = if a = l then w else z := by
  by_cases h : a = l
  · rw [if_pos h, StableHlo.Predicate.cmpi_eq_iff.mpr h]; exact select_one w z
  · rw [if_neg h, eq_zero_of_ne_one (fun h1 => h (StableHlo.Predicate.cmpi_eq_iff.mp h1))]; exact select_zero w z

/-- One tap's block: weight w of row p where row p's tap a is the tile's position k, zero elsewhere. -/
private theorem tap_apply (s : ℕ) (a : Vec Ideal S1x512x1 .i32) (w : Vec Ideal S1x512x1 .f32) (p : Fin 512) (k : Fin 1024) :
    (select
        (cmpi .eq (broadcastTo S512x1024 (shapeCast S512x1 a shapeCasts_S1x512x1_S512x1) broadcasts_S512x1_S512x1024)
          (broadcastTo S512x1024
            (addi (broadcast S1x1024 (Scalar.muli (BitVec.ofNat 32 s) 1024#32)) (iota .tc S1x1024 32 [1] iota_S1x1024_d1_w32))
            broadcasts_S1x1024_S512x1024))
        (broadcastTo S512x1024
          (shapeCast S512x1 (shapeCast S512x1 w shapeCasts_S1x512x1_S512x1) shapeCasts_S512x1_S512x1) broadcasts_S512x1_S512x1024)
        (broadcast S512x1024 (Scalar.ofBits (F := Ideal) .f32 0x00000000#32)) : FVec Ideal S512x1024 .f32) (ix2 p k)
      = if a (ix3 0 p 0) = lpos s k then w (ix3 0 p 0) else 0 := by
  refine (select_apply _ _ _ (ix2 p k)).trans ?_
  refine Eq.trans ?_ (select_cmpi_eq (a (ix3 0 p 0)) (lpos s k) (w (ix3 0 p 0)) 0)
  have h1 := column_apply a p k
  have h2 := positions_apply s p k
  have h3 : broadcastTo S512x1024
      (shapeCast S512x1 (shapeCast S512x1 w shapeCasts_S1x512x1_S512x1) shapeCasts_S512x1_S512x1) broadcasts_S512x1_S512x1024 (ix2 p k)
      = w (ix3 0 p 0) := by
    rw [shapeCast_self]; exact column_apply w p k
  have h4 : (broadcast S512x1024 (Scalar.ofBits (F := Ideal) .f32 0x00000000#32) : FVec Ideal S512x1024 .f32) (ix2 p k) = (0 : EReal) :=
    Ideal.ofBits_zero_f32
  show Scalar.select (IntOp.cmpi .eq _ _) _ _ = _
  rw [h1, h2, h3, h4]

theorem pay2_apply (i : grid0.Coords) (v3 : Vec Ideal S1x256x1024 .f32) (v20 v23 : Vec Ideal S1x512x1 .i32)
    (v26 v29 : Vec Ideal S1x512x1 .f32) (v49 : Vec Ideal S512x256 .f32) (p : Fin 512) (q : Fin 256) :
    k0_pay2 (F := Ideal) i v3 v20 v23 v26 v29 v49 (ix2 p q)
      = v49 (ix2 p q) + tileSum (i 1).val (v20 (ix3 0 p 0)) (v23 (ix3 0 p 0)) (v26 (ix3 0 p 0)) (v29 (ix3 0 p 0))
          (fun k => v3 (ix3 0 q k)) := by
  unfold k0_pay2
  refine (congrFun (shapeCast_self _ shapeCasts_S512x256_S512x256) (ix2 p q)).trans ?_
  refine (addf_apply _ _ (ix2 p q)).trans ?_
  refine congrArg (v49 (ix2 p q) + ·) ?_
  refine (product_apply _ _ p q).trans ?_
  unfold tileSum hot
  refine Finset.sum_congr rfl fun k _ => ?_
  refine congrArg₂ (· * ·) ?_ (tile_apply v3 k q)
  refine (truncf_apply _ bitsLt_bf16_f32 (ix2 p k)).trans ?_
  refine (addf_apply _ _ (ix2 p k)).trans ?_
  exact congrArg₂ (· + ·) (tap_apply (i 1).val v20 v26 p k) (tap_apply (i 1).val v23 v29 p k)

end Cert.Sampler

end
-- ==== Proof.CasePieces.lean ====
/-
  What each control case of the body leaves in the accumulator and in the output block, read at an entry.

  The chunk loop's four trips store four disjoint 512-row blocks, each the accumulator's rows plus the tile's contribution,
  so after the loop row r, column q holds what the loop found there plus the tile's contribution for row r. At a tile's
  first point the accumulator is zeroed first; at its last point the output block is the accumulator after the loop.
-/
import proofs.«149111_j50354196579100_1_alg».proof.Proof.Gen.KernelIdeal.Frame
import proofs.«149111_j50354196579100_1_alg».proof.Proof.TilePayload

set_option maxRecDepth 16384

noncomputable section

namespace Cert.Sampler

open Idealize.ShloMosaic Idealize.ShloMosaic.TcCoe Idealize.SL.Sem Idealize.ShloMosaic.ValueIdx
open Cert.KernelIdeal Cert.KernelIdeal.Gen

/-- The chunk loop runs four trips. -/
private theorem trips_eq : k0_t1_loop.trips = 4 := by decide

section Trip

variable {F : FTy → Type} [FloatOps F]

/-- One trip of the chunk loop stores ONE block: rows 512 k to 512 k + 511, the payload of the five loads at that same offset
    (the four per-row operands and the accumulator block). -/
private theorem tripL_eq (𝒱 : Variants) (c : Dev nD) (bd : Option 𝒱.V) (i : grid0.Coords) (arg2 : Memref sig .tc .vmem S1x256x1024 .f32) (harg2 : arg2.IsWhole) (arg3 : Memref sig .tc .vmem S1x2048x1 .i32) (harg3 : arg3.IsWhole) (arg4 : Memref sig .tc .vmem S1x2048x1 .i32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x256 .f32) (harg7 : arg7.IsWhole) (arg8 : Memref sig .tc .vmem S2048x256 .f32) (harg8 : arg8.IsWhole) (v3 : Vec F S1x256x1024 .f32) (X3 : BufTy.Contents (Elt F) arg3.view.ty) (X4 : BufTy.Contents (Elt F) arg4.view.ty) (X5 : BufTy.Contents (Elt F) arg5.view.ty) (X6 : BufTy.Contents (Elt F) arg6.view.ty) (k : Fin k0_t1_loop.trips) (f : BufTy.Contents (Elt F) arg8.view.ty) :
    tripL_k0_t1 (F := F) 𝒱 c bd i arg2 harg2 arg3 harg3 arg4 harg4 arg5 harg5 arg6 harg6 arg7 harg7 arg8 harg8 v3 X3 X4 X5 X6 k f
      = [⟨Rect.unit (s := S2048x256) (k0_off2 k) S512x256.size (k0_off2_inb k),
          k0_pay2 i v3
            (arg3.view.readAt (Elt F) (Rect.unit (s := S1x2048x1) (k0_off1 k) S1x512x1.size (k0_off1_inb k)).toLoadRect X3)
            (arg4.view.readAt (Elt F) (Rect.unit (s := S1x2048x1) (k0_off1 k) S1x512x1.size (k0_off1_inb k)).toLoadRect X4)
            (arg5.view.readAt (Elt F) (Rect.unit (s := S1x2048x1) (k0_off1 k) S1x512x1.size (k0_off1_inb k)).toLoadRect X5)
            (arg6.view.readAt (Elt F) (Rect.unit (s := S1x2048x1) (k0_off1 k) S1x512x1.size (k0_off1_inb k)).toLoadRect X6)
            (arg8.view.readAt (Elt F) (Rect.unit (s := S2048x256) (k0_off2 k) S512x256.size (k0_off2_inb k)).toLoadRect f)⟩] := by
  unfold tripL_k0_t1 trip_k0_t1
  rfl

end Trip

/-- Row p, column q of trip k's block is row 512 k + p, column q of the accumulator. -/
private theorem emb2_eq (k : Fin k0_t1_loop.trips) (p : Fin 512) (q : Fin 256) (r : Fin 2048) (h : r.val = 512 * k.val + p.val) :
    (Rect.unit (s := S2048x256) (k0_off2 k) S512x256.size (k0_off2_inb k)).emb (ix2 p q) = ix2 r q := by
  funext a
  match a with
  | ⟨0, _⟩ => exact Fin.ext (by show k0_off2 k 0 + 1 * p.val = r.val; rw [k0_off2_eq]; show 512 * k.val + 1 * p.val = r.val; omega)
  | ⟨1, _⟩ => exact Fin.ext (by show k0_off2 k 1 + 1 * q.val = q.val; rw [k0_off2_eq]; show 0 + 1 * q.val = q.val; omega)

/-- Row p of trip k's slice of a per-row operand is row 512 k + p of the operand. -/
private theorem idx1_eq (k : Fin k0_t1_loop.trips) (p : Fin 512) (r : Fin 2048) (h : r.val = 512 * k.val + p.val) :
    (Rect.unit (s := S1x2048x1) (k0_off1 k) S1x512x1.size (k0_off1_inb k)).toLoadRect.idx (ix3 0 p 0) = ix3 0 r 0 := by
  funext a
  match a with
  | ⟨0, _⟩ => exact Fin.ext (by show k0_off1 k 0 + 1 * 0 = 0; rw [k0_off1_eq]; rfl)
  | ⟨1, _⟩ => exact Fin.ext (by show k0_off1 k 1 + 1 * p.val = r.val; rw [k0_off1_eq]; show 512 * k.val + 1 * p.val = r.val; omega)
  | ⟨2, _⟩ => exact Fin.ext (by show k0_off1 k 2 + 1 * 0 = 0; rw [k0_off1_eq]; rfl)

/-- The same placement, as a load through the block reads it. -/
private theorem idx2_eq (k : Fin k0_t1_loop.trips) (p : Fin 512) (q : Fin 256) (r : Fin 2048) (h : r.val = 512 * k.val + p.val) :
    (Rect.unit (s := S2048x256) (k0_off2 k) S512x256.size (k0_off2_inb k)).toLoadRect.idx (ix2 p q) = ix2 r q :=
  emb2_eq k p q r h

/-- A row before or after trip k's 512 rows is not in its block. -/
private theorem not_mem_block (k : Fin k0_t1_loop.trips) (r : Fin 2048) (q : Fin 256) (h : r.val < 512 * k.val ∨ 512 * (k.val + 1) ≤ r.val) :
    ix2 r q ∉ (Rect.unit (s := S2048x256) (k0_off2 k) S512x256.size (k0_off2_inb k)).set := by
  rw [Rect.mem_set_unit]
  intro hm
  have h0 := hm 0
  rw [k0_off2_eq] at h0
  change 512 * k.val ≤ r.val ∧ r.val < 512 * k.val + 512 at h0
  omega

section Loop

variable (c : Dev nD) (i : grid0.Coords) (arg2 : Memref sig .tc .vmem S1x256x1024 .f32) (harg2 : arg2.IsWhole) (arg3 : Memref sig .tc .vmem S1x2048x1 .i32) (harg3 : arg3.IsWhole) (arg4 : Memref sig .tc .vmem S1x2048x1 .i32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x256 .f32) (harg7 : arg7.IsWhole) (arg8 : Memref sig .tc .vmem S2048x256 .f32) (harg8 : arg8.IsWhole)
  (v3 : Vec Ideal S1x256x1024 .f32) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

/-- The length-tile's contribution to row r, column q, from the contents of the four per-row operands and the loaded input tile. -/
private abbrev tileAt (r : Fin 2048) (q : Fin 256) : EReal :=
  tileSum (i 1).val (arg3.view.read (Elt Ideal) X3 (ix3 0 r 0)) (arg4.view.read (Elt Ideal) X4 (ix3 0 r 0))
    (arg5.view.read (Elt Ideal) X5 (ix3 0 r 0)) (arg6.view.read (Elt Ideal) X6 (ix3 0 r 0)) (fun j => v3 (ix3 0 q j))

/-- Trip k's payload at row p, column q: what the accumulator held at row 512 k + p plus the tile's contribution for that row. -/
private theorem trip_pay_apply (k : Fin k0_t1_loop.trips) (f : BufTy.Contents (Elt Ideal) arg8.view.ty) (p : Fin 512) (q : Fin 256) (r : Fin 2048)
    (h : r.val = 512 * k.val + p.val) :
    k0_pay2 (F := Ideal) i v3 (arg3.view.readAt (Elt Ideal) (Rect.unit (s := S1x2048x1) (k0_off1 k) S1x512x1.size (k0_off1_inb k)).toLoadRect X3) (arg4.view.readAt (Elt Ideal) (Rect.unit (s := S1x2048x1) (k0_off1 k) S1x512x1.size (k0_off1_inb k)).toLoadRect X4)
        (arg5.view.readAt (Elt Ideal) (Rect.unit (s := S1x2048x1) (k0_off1 k) S1x512x1.size (k0_off1_inb k)).toLoadRect X5) (arg6.view.readAt (Elt Ideal) (Rect.unit (s := S1x2048x1) (k0_off1 k) S1x512x1.size (k0_off1_inb k)).toLoadRect X6)
        (arg8.view.readAt (Elt Ideal) (Rect.unit (s := S2048x256) (k0_off2 k) S512x256.size (k0_off2_inb k)).toLoadRect f) (ix2 p q)
      = arg8.view.read (Elt Ideal) f (ix2 r q) + tileAt i arg3 arg4 arg5 arg6 v3 X3 X4 X5 X6 r q := by
  refine (pay2_apply i v3 _ _ _ _ _ p q).trans ?_
  rw [View.readAt_apply, View.readAt_apply, View.readAt_apply, View.readAt_apply, View.readAt_apply, idx1_eq k p r h, idx2_eq k p q r h]

end Loop

section Loop2

variable (c : Dev nD) (i : grid0.Coords) (arg2 : Memref sig .tc .vmem S1x256x1024 .f32) (harg2 : arg2.IsWhole) (arg3 : Memref sig .tc .vmem S1x2048x1 .i32) (harg3 : arg3.IsWhole) (arg4 : Memref sig .tc .vmem S1x2048x1 .i32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x256 .f32) (harg7 : arg7.IsWhole) (arg8 : Memref sig .tc .vmem S2048x256 .f32) (harg8 : arg8.IsWhole)
  (v3 : Vec Ideal S1x256x1024 .f32) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
  (G : BufTy.Contents (Elt Ideal) arg8.view.ty)

/-- After k + 1 trips the pieces are trip k's one store in front of the pieces of the k trips before. -/
private theorem pb_step (k : ℕ) (hk : k < k0_t1_loop.trips) :
    pb_k0_t1 (F := Ideal) Variants.none c none i arg2 harg2 arg3 harg3 arg4 harg4 arg5 harg5 arg6 harg6 arg7 harg7 arg8 harg8 v3 X3 X4 X5 X6 G (k + 1)
      = (⟨Rect.unit (s := S2048x256) (k0_off2 ⟨k, hk⟩) S512x256.size (k0_off2_inb ⟨k, hk⟩),
          k0_pay2 i v3
            (arg3.view.readAt (Elt Ideal) (Rect.unit (s := S1x2048x1) (k0_off1 ⟨k, hk⟩) S1x512x1.size (k0_off1_inb ⟨k, hk⟩)).toLoadRect X3)
            (arg4.view.readAt (Elt Ideal) (Rect.unit (s := S1x2048x1) (k0_off1 ⟨k, hk⟩) S1x512x1.size (k0_off1_inb ⟨k, hk⟩)).toLoadRect X4)
            (arg5.view.readAt (Elt Ideal) (Rect.unit (s := S1x2048x1) (k0_off1 ⟨k, hk⟩) S1x512x1.size (k0_off1_inb ⟨k, hk⟩)).toLoadRect X5)
            (arg6.view.readAt (Elt Ideal) (Rect.unit (s := S1x2048x1) (k0_off1 ⟨k, hk⟩) S1x512x1.size (k0_off1_inb ⟨k, hk⟩)).toLoadRect X6)
            (arg8.view.readAt (Elt Ideal) (Rect.unit (s := S2048x256) (k0_off2 ⟨k, hk⟩) S512x256.size (k0_off2_inb ⟨k, hk⟩)).toLoadRect
              (arg8.view.writes (Elt Ideal) G (pb_k0_t1 (F := Ideal) Variants.none c none i arg2 harg2 arg3 harg3 arg4 harg4 arg5 harg5 arg6 harg6 arg7 harg7 arg8 harg8 v3 X3 X4 X5 X6 G k)))⟩ : View.Piece (Elt Ideal) S2048x256 .f32)
        :: pb_k0_t1 (F := Ideal) Variants.none c none i arg2 harg2 arg3 harg3 arg4 harg4 arg5 harg5 arg6 harg6 arg7 harg7 arg8 harg8 v3 X3 X4 X5 X6 G k := by
  have e := pb_k0_t1_succ (F := Ideal) Variants.none c none i arg2 harg2 arg3 harg3 arg4 harg4 arg5 harg5 arg6 harg6 arg7 harg7 arg8 harg8 v3 X3 X4 X5 X6 G ⟨k, hk⟩
  rw [tripL_eq] at e
  exact e

/-- Rows at or past 512 k are as the loop found them after k trips. -/
private theorem pb_read_above : ∀ k : ℕ, k ≤ 4 → ∀ (r : Fin 2048) (q : Fin 256), 512 * k ≤ r.val →
    arg8.view.read (Elt Ideal) (arg8.view.writes (Elt Ideal) G (pb_k0_t1 (F := Ideal) Variants.none c none i arg2 harg2 arg3 harg3 arg4 harg4 arg5 harg5 arg6 harg6 arg7 harg7 arg8 harg8 v3 X3 X4 X5 X6 G k)) (ix2 r q)
      = arg8.view.read (Elt Ideal) G (ix2 r q) := by
  intro k
  induction k with
  | zero => intro _ r q _; rfl
  | succ k ih =>
    intro hk r q hr
    have hk' : k < k0_t1_loop.trips := by rw [trips_eq]; omega
    rw [pb_step c i arg2 harg2 arg3 harg3 arg4 harg4 arg5 harg5 arg6 harg6 arg7 harg7 arg8 harg8 v3 X3 X4 X5 X6 G k hk', View.writes_cons,
      View.read_slice_write_of_not_mem _ _ _ _ (by
        rw [Rect.map_emb_univ]; exact not_mem_block ⟨k, hk'⟩ r q (Or.inr hr))]
    exact ih (by omega) r q (by omega)

end Loop2

/-- Off the last store's rectangle the canon is the earlier stores'. -/
private theorem canon_cons_miss {S : Shape} {e : EltTy} (R : Rect S) (w : R.shape.Idx → Elt Ideal e) (L : List (View.Piece (Elt Ideal) S e)) (y : S.Idx)
    (h : y ∉ R.set) : View.canon ((⟨R, w⟩ : View.Piece (Elt Ideal) S e) :: L) y = View.canon L y :=
  View.canon_cons_of_not_mem ⟨R, w⟩ L h

section Loop3

variable (c : Dev nD) (i : grid0.Coords) (arg2 : Memref sig .tc .vmem S1x256x1024 .f32) (harg2 : arg2.IsWhole) (arg3 : Memref sig .tc .vmem S1x2048x1 .i32) (harg3 : arg3.IsWhole) (arg4 : Memref sig .tc .vmem S1x2048x1 .i32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x256 .f32) (harg7 : arg7.IsWhole) (arg8 : Memref sig .tc .vmem S2048x256 .f32) (harg8 : arg8.IsWhole)
  (v3 : Vec Ideal S1x256x1024 .f32) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
  (G : BufTy.Contents (Elt Ideal) arg8.view.ty)

/-- After k trips, whatever was stored before the loop, a row below 512 k holds what the loop found there plus the tile's contribution. -/
private theorem pb_canon (L' : List (View.Piece (Elt Ideal) S2048x256 .f32)) : ∀ k : ℕ, k ≤ 4 → ∀ (r : Fin 2048) (q : Fin 256), r.val < 512 * k →
    View.canon (pb_k0_t1 (F := Ideal) Variants.none c none i arg2 harg2 arg3 harg3 arg4 harg4 arg5 harg5 arg6 harg6 arg7 harg7 arg8 harg8 v3 X3 X4 X5 X6 G k ++ L') (ix2 r q)
      = arg8.view.read (Elt Ideal) G (ix2 r q) + tileAt i arg3 arg4 arg5 arg6 v3 X3 X4 X5 X6 r q := by
  intro k
  induction k with
  | zero => intro _ r q hr; omega
  | succ k ih =>
    intro hk r q hr
    have hk' : k < k0_t1_loop.trips := by rw [trips_eq]; omega
    rw [pb_step c i arg2 harg2 arg3 harg3 arg4 harg4 arg5 harg5 arg6 harg6 arg7 harg7 arg8 harg8 v3 X3 X4 X5 X6 G k hk', List.cons_append]
    by_cases hlt : r.val < 512 * k
    · rw [canon_cons_miss _ _ _ _ (not_mem_block ⟨k, hk'⟩ r q (Or.inl hlt))]
      exact ih (by omega) r q hlt
    · have hp : r.val - 512 * k < 512 := by omega
      have hrp : r.val = 512 * (⟨k, hk'⟩ : Fin k0_t1_loop.trips).val + (⟨r.val - 512 * k, hp⟩ : Fin 512).val := by
        show r.val = 512 * k + (r.val - 512 * k); omega
      rw [← emb2_eq ⟨k, hk'⟩ ⟨r.val - 512 * k, hp⟩ q r hrp, View.canon_cons_emb,
        trip_pay_apply i arg3 arg4 arg5 arg6 arg8 v3 X3 X4 X5 X6 ⟨k, hk'⟩ _ ⟨r.val - 512 * k, hp⟩ q r hrp,
        pb_read_above c i arg2 harg2 arg3 harg3 arg4 harg4 arg5 harg5 arg6 harg6 arg7 harg7 arg8 harg8 v3 X3 X4 X5 X6 G k (by omega) r q (by omega),
        emb2_eq ⟨k, hk'⟩ ⟨r.val - 512 * k, hp⟩ q r hrp]

end Loop3

/-- The loop's trip count, over its literal bounds, is four. -/
private theorem trips_run : Scf.trips (0#32) (Scalar.addi 0#32 4#32) 1#32 = 4 := by decide

/-- The middle case leaves in the accumulator the pieces of the loop's four trips over what it found. -/
private theorem runB_pieces (c : Dev nD) (i : grid0.Coords) (arg2 : Memref sig .tc .vmem S1x256x1024 .f32) (harg2 : arg2.IsWhole) (arg3 : Memref sig .tc .vmem S1x2048x1 .i32) (harg3 : arg3.IsWhole) (arg4 : Memref sig .tc .vmem S1x2048x1 .i32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x256 .f32) (harg7 : arg7.IsWhole) (arg8 : Memref sig .tc .vmem S2048x256 .f32) (harg8 : arg8.IsWhole) (hc0 : ¬cond0_0 i) (hc1 : ¬cond0_1 i)
    (x0 : Vec Ideal S1x256x1024 .f32) (x1 x2 : Vec Ideal S1x2048x1 .i32) (x3 x4 : Vec Ideal S1x2048x1 .f32) (xs0 : Vec Ideal S2048x256 .f32) :
    (kernelRun0_B (F := Ideal) c i arg2 harg2 arg3 harg3 arg4 harg4 arg5 harg5 arg6 harg6 arg7 harg7 arg8 harg8 hc0 hc1 x0 x1 x2 x3 x4 xs0).2.1
      = pb_k0_t1 (F := Ideal) Variants.none c none i arg2 harg2 arg3 harg3 arg4 harg4 arg5 harg5 arg6 harg6 arg7 harg7 arg8 harg8 (arg2.view.readAt (Elt Ideal) (Rect.unit (s := S1x256x1024) ![0, 0, 0] S1x256x1024.size inb_S1x256x1024_S1x256x1024_0_0_0).toLoadRect (harg2.unread x0))
          (harg3.unread x1) (harg4.unread x2) (harg5.unread x3) (harg6.unread x4) (harg8.unread xs0) 4 := by
  unfold kernelRun0_B
  dsimp only
  rw [trips_run]

/-- The load of the whole input tile reads the tile. -/
private theorem v3_apply (arg2 : Memref sig .tc .vmem S1x256x1024 .f32) (harg2 : arg2.IsWhole) (x0 : Vec Ideal S1x256x1024 .f32) :
    (arg2.view.readAt (Elt Ideal) (Rect.unit (s := S1x256x1024) ![0, 0, 0] S1x256x1024.size inb_S1x256x1024_S1x256x1024_0_0_0).toLoadRect (harg2.unread x0)) = x0 := by
  rw [View.readAt_eq_ld, harg2.read_unread, View.ld_unit_zero (S := S1x256x1024) (by funext a; fin_cases a <;> rfl)]

/-- The same count, over the loop's named bounds. -/
private theorem trips_run' : Scf.trips k0_t1_loop.lb k0_t1_loop.ub k0_t1_loop.st = 4 := trips_eq

/-- So does the last case; -/
private theorem runC_pieces (c : Dev nD) (i : grid0.Coords) (arg2 : Memref sig .tc .vmem S1x256x1024 .f32) (harg2 : arg2.IsWhole) (arg3 : Memref sig .tc .vmem S1x2048x1 .i32) (harg3 : arg3.IsWhole) (arg4 : Memref sig .tc .vmem S1x2048x1 .i32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x256 .f32) (harg7 : arg7.IsWhole) (arg8 : Memref sig .tc .vmem S2048x256 .f32) (harg8 : arg8.IsWhole) (hc0 : ¬cond0_0 i) (hc1 : cond0_1 i)
    (x0 : Vec Ideal S1x256x1024 .f32) (x1 x2 : Vec Ideal S1x2048x1 .i32) (x3 x4 : Vec Ideal S1x2048x1 .f32) (xs0 : Vec Ideal S2048x256 .f32) :
    (kernelRun0_C (F := Ideal) c i arg2 harg2 arg3 harg3 arg4 harg4 arg5 harg5 arg6 harg6 arg7 harg7 arg8 harg8 hc0 hc1 x0 x1 x2 x3 x4 xs0).2.1
      = pb_k0_t1 (F := Ideal) Variants.none c none i arg2 harg2 arg3 harg3 arg4 harg4 arg5 harg5 arg6 harg6 arg7 harg7 arg8 harg8 (arg2.view.readAt (Elt Ideal) (Rect.unit (s := S1x256x1024) ![0, 0, 0] S1x256x1024.size inb_S1x256x1024_S1x256x1024_0_0_0).toLoadRect (harg2.unread x0))
          (harg3.unread x1) (harg4.unread x2) (harg5.unread x3) (harg6.unread x4) (harg8.unread xs0) 4 := by
  unfold kernelRun0_C
  dsimp only
  rw [trips_run]

open Idealize.ShloMosaic.Tactic in
/-- and its one store into the output block is the accumulator after the loop, loaded whole, under a leading unit axis. -/
private theorem runC_out_pieces (c : Dev nD) (i : grid0.Coords) (arg2 : Memref sig .tc .vmem S1x256x1024 .f32) (harg2 : arg2.IsWhole) (arg3 : Memref sig .tc .vmem S1x2048x1 .i32) (harg3 : arg3.IsWhole) (arg4 : Memref sig .tc .vmem S1x2048x1 .i32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x256 .f32) (harg7 : arg7.IsWhole) (arg8 : Memref sig .tc .vmem S2048x256 .f32) (harg8 : arg8.IsWhole) (hc0 : ¬cond0_0 i) (hc1 : cond0_1 i)
    (x0 : Vec Ideal S1x256x1024 .f32) (x1 x2 : Vec Ideal S1x2048x1 .i32) (x3 x4 : Vec Ideal S1x2048x1 .f32) (xs0 : Vec Ideal S2048x256 .f32) :
    (kernelRun0_C (F := Ideal) c i arg2 harg2 arg3 harg3 arg4 harg4 arg5 harg5 arg6 harg6 arg7 harg7 arg8 harg8 hc0 hc1 x0 x1 x2 x3 x4 xs0).1
      = [⟨Rect.unit (s := S1x2048x256) ![0, 0, 0] S1x2048x256.size inb_S1x2048x256_S1x2048x256_0_0_0,
          k0_pay3 (arg8.view.readAt (Elt Ideal) (Rect.unit (s := S2048x256) ![0, 0] S2048x256.size inb_S2048x256_S2048x256_0_0).toLoadRect
            (arg8.view.writes (Elt Ideal) (harg8.unread xs0)
              (pb_k0_t1 (F := Ideal) Variants.none c none i arg2 harg2 arg3 harg3 arg4 harg4 arg5 harg5 arg6 harg6 arg7 harg7 arg8 harg8 (arg2.view.readAt (Elt Ideal) (Rect.unit (s := S1x256x1024) ![0, 0, 0] S1x256x1024.size inb_S1x256x1024_S1x256x1024_0_0_0).toLoadRect (harg2.unread x0))
                (harg3.unread x1) (harg4.unread x2) (harg5.unread x3) (harg6.unread x4) (harg8.unread xs0) 4)))⟩] := by
  unfold kernelRun0_C
  dsimp only
  sl_unfold_run_names
  rw [trips_run']

open Idealize.ShloMosaic.Tactic in
/-- The first case zeroes the accumulator, then runs the loop over the zeroed contents. -/
private theorem runA_pieces (c : Dev nD) (i : grid0.Coords) (arg2 : Memref sig .tc .vmem S1x256x1024 .f32) (harg2 : arg2.IsWhole) (arg3 : Memref sig .tc .vmem S1x2048x1 .i32) (harg3 : arg3.IsWhole) (arg4 : Memref sig .tc .vmem S1x2048x1 .i32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x256 .f32) (harg7 : arg7.IsWhole) (arg8 : Memref sig .tc .vmem S2048x256 .f32) (harg8 : arg8.IsWhole) (hc0 : cond0_0 i) (hc1 : ¬cond0_1 i)
    (x0 : Vec Ideal S1x256x1024 .f32) (x1 x2 : Vec Ideal S1x2048x1 .i32) (x3 x4 : Vec Ideal S1x2048x1 .f32) :
    (kernelRun0_A (F := Ideal) c i arg2 harg2 arg3 harg3 arg4 harg4 arg5 harg5 arg6 harg6 arg7 harg7 arg8 harg8 hc0 hc1 x0 x1 x2 x3 x4).2.1
      = pb_k0_t1 (F := Ideal) Variants.none c none i arg2 harg2 arg3 harg3 arg4 harg4 arg5 harg5 arg6 harg6 arg7 harg7 arg8 harg8 (arg2.view.readAt (Elt Ideal) (Rect.unit (s := S1x256x1024) ![0, 0, 0] S1x256x1024.size inb_S1x256x1024_S1x256x1024_0_0_0).toLoadRect (harg2.unread x0))
          (harg3.unread x1) (harg4.unread x2) (harg5.unread x3) (harg6.unread x4)
          (arg8.view.writes (Elt Ideal) arg8.view.junk [(⟨Rect.unit (s := S2048x256) ![0, 0] S2048x256.size inb_S2048x256_S2048x256_0_0, k0_pay1 (F := Ideal)⟩ : View.Piece (Elt Ideal) S2048x256 .f32)]) 4 ++ [(⟨Rect.unit (s := S2048x256) ![0, 0] S2048x256.size inb_S2048x256_S2048x256_0_0, k0_pay1 (F := Ideal)⟩ : View.Piece (Elt Ideal) S2048x256 .f32)] := by
  unfold kernelRun0_A
  dsimp only
  sl_unfold_run_names
  rw [trips_run]

/-- The zeroing store's payload is zero everywhere. -/
private theorem pay1_apply (y : S2048x256.Idx) : k0_pay1 (F := Ideal) y = (0 : EReal) := by
  unfold k0_pay1
  rw [shapeCast_self]
  exact Ideal.ofBits_zero_f32

theorem sout0_A_0_apply (c : Dev nD) (i : grid0.Coords) (arg2 : Memref sig .tc .vmem S1x256x1024 .f32) (harg2 : arg2.IsWhole) (arg3 : Memref sig .tc .vmem S1x2048x1 .i32) (harg3 : arg3.IsWhole) (arg4 : Memref sig .tc .vmem S1x2048x1 .i32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x256 .f32) (harg7 : arg7.IsWhole) (arg8 : Memref sig .tc .vmem S2048x256 .f32) (harg8 : arg8.IsWhole) (hc0 : cond0_0 i) (hc1 : ¬cond0_1 i)
    (x0 : Vec Ideal S1x256x1024 .f32) (x1 x2 : Vec Ideal S1x2048x1 .i32) (x3 x4 : Vec Ideal S1x2048x1 .f32) (r : Fin 2048) (q : Fin 256) :
    sout0_A_0 (F := Ideal) c i arg2 harg2 arg3 harg3 arg4 harg4 arg5 harg5 arg6 harg6 arg7 harg7 arg8 harg8 hc0 hc1 x0 x1 x2 x3 x4 (ix2 r q)
      = (0 : EReal) + tileSum (i 1).val (x1 (ix3 0 r 0)) (x2 (ix3 0 r 0)) (x3 (ix3 0 r 0)) (x4 (ix3 0 r 0)) (fun k => x0 (ix3 0 q k)) := by
  unfold sout0_A_0
  rw [View.read_writes_junk_eq_canon, runA_pieces]
  refine (pb_canon c i arg2 harg2 arg3 harg3 arg4 harg4 arg5 harg5 arg6 harg6 arg7 harg7 arg8 harg8 (arg2.view.readAt (Elt Ideal) (Rect.unit (s := S1x256x1024) ![0, 0, 0] S1x256x1024.size inb_S1x256x1024_S1x256x1024_0_0_0).toLoadRect (harg2.unread x0)) (harg3.unread x1) (harg4.unread x2) (harg5.unread x3) (harg6.unread x4)
    (arg8.view.writes (Elt Ideal) arg8.view.junk [(⟨Rect.unit (s := S2048x256) ![0, 0] S2048x256.size inb_S2048x256_S2048x256_0_0, k0_pay1 (F := Ideal)⟩ : View.Piece (Elt Ideal) S2048x256 .f32)]) [(⟨Rect.unit (s := S2048x256) ![0, 0] S2048x256.size inb_S2048x256_S2048x256_0_0, k0_pay1 (F := Ideal)⟩ : View.Piece (Elt Ideal) S2048x256 .f32)] 4 (le_refl 4) r q (by have := r.isLt; omega)).trans ?_
  unfold tileAt
  rw [View.read_writes_junk_eq_canon, View.canon_unit_zero (S := S2048x256) (by funext a; fin_cases a <;> rfl), pay1_apply,
    harg3.read_unread, harg4.read_unread, harg5.read_unread, harg6.read_unread, v3_apply]

theorem sout0_B_0_apply (c : Dev nD) (i : grid0.Coords) (arg2 : Memref sig .tc .vmem S1x256x1024 .f32) (harg2 : arg2.IsWhole) (arg3 : Memref sig .tc .vmem S1x2048x1 .i32) (harg3 : arg3.IsWhole) (arg4 : Memref sig .tc .vmem S1x2048x1 .i32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x256 .f32) (harg7 : arg7.IsWhole) (arg8 : Memref sig .tc .vmem S2048x256 .f32) (harg8 : arg8.IsWhole) (hc0 : ¬cond0_0 i) (hc1 : ¬cond0_1 i)
    (x0 : Vec Ideal S1x256x1024 .f32) (x1 x2 : Vec Ideal S1x2048x1 .i32) (x3 x4 : Vec Ideal S1x2048x1 .f32) (xs0 : Vec Ideal S2048x256 .f32) (r : Fin 2048) (q : Fin 256) :
    sout0_B_0 (F := Ideal) c i arg2 harg2 arg3 harg3 arg4 harg4 arg5 harg5 arg6 harg6 arg7 harg7 arg8 harg8 hc0 hc1 x0 x1 x2 x3 x4 xs0 (ix2 r q)
      = xs0 (ix2 r q) + tileSum (i 1).val (x1 (ix3 0 r 0)) (x2 (ix3 0 r 0)) (x3 (ix3 0 r 0)) (x4 (ix3 0 r 0)) (fun k => x0 (ix3 0 q k)) := by
  unfold sout0_B_0
  rw [View.read_writes_junk_eq_canon, runB_pieces, ← List.append_nil (pb_k0_t1 _ _ _ _ _ _ _ _ _ _ _ _ _ _ _ _ _ _ _ _ _ _ _ _ _)]
  refine (pb_canon c i arg2 harg2 arg3 harg3 arg4 harg4 arg5 harg5 arg6 harg6 arg7 harg7 arg8 harg8 (arg2.view.readAt (Elt Ideal) (Rect.unit (s := S1x256x1024) ![0, 0, 0] S1x256x1024.size inb_S1x256x1024_S1x256x1024_0_0_0).toLoadRect (harg2.unread x0)) (harg3.unread x1) (harg4.unread x2) (harg5.unread x3) (harg6.unread x4) (harg8.unread xs0) [] 4 (le_refl 4) r q (by have := r.isLt; omega)).trans ?_
  unfold tileAt
  rw [harg8.read_unread, harg3.read_unread, harg4.read_unread, harg5.read_unread, harg6.read_unread, v3_apply]

theorem sout0_C_0_apply (c : Dev nD) (i : grid0.Coords) (arg2 : Memref sig .tc .vmem S1x256x1024 .f32) (harg2 : arg2.IsWhole) (arg3 : Memref sig .tc .vmem S1x2048x1 .i32) (harg3 : arg3.IsWhole) (arg4 : Memref sig .tc .vmem S1x2048x1 .i32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x256 .f32) (harg7 : arg7.IsWhole) (arg8 : Memref sig .tc .vmem S2048x256 .f32) (harg8 : arg8.IsWhole) (hc0 : ¬cond0_0 i) (hc1 : cond0_1 i)
    (x0 : Vec Ideal S1x256x1024 .f32) (x1 x2 : Vec Ideal S1x2048x1 .i32) (x3 x4 : Vec Ideal S1x2048x1 .f32) (xs0 : Vec Ideal S2048x256 .f32) (r : Fin 2048) (q : Fin 256) :
    sout0_C_0 (F := Ideal) c i arg2 harg2 arg3 harg3 arg4 harg4 arg5 harg5 arg6 harg6 arg7 harg7 arg8 harg8 hc0 hc1 x0 x1 x2 x3 x4 xs0 (ix2 r q)
      = xs0 (ix2 r q) + tileSum (i 1).val (x1 (ix3 0 r 0)) (x2 (ix3 0 r 0)) (x3 (ix3 0 r 0)) (x4 (ix3 0 r 0)) (fun k => x0 (ix3 0 q k)) := by
  unfold sout0_C_0
  rw [View.read_writes_junk_eq_canon, runC_pieces, ← List.append_nil (pb_k0_t1 _ _ _ _ _ _ _ _ _ _ _ _ _ _ _ _ _ _ _ _ _ _ _ _ _)]
  refine (pb_canon c i arg2 harg2 arg3 harg3 arg4 harg4 arg5 harg5 arg6 harg6 arg7 harg7 arg8 harg8 (arg2.view.readAt (Elt Ideal) (Rect.unit (s := S1x256x1024) ![0, 0, 0] S1x256x1024.size inb_S1x256x1024_S1x256x1024_0_0_0).toLoadRect (harg2.unread x0)) (harg3.unread x1) (harg4.unread x2) (harg5.unread x3) (harg6.unread x4) (harg8.unread xs0) [] 4 (le_refl 4) r q (by have := r.isLt; omega)).trans ?_
  unfold tileAt
  rw [harg8.read_unread, harg3.read_unread, harg4.read_unread, harg5.read_unread, harg6.read_unread, v3_apply]

theorem out0_C_5_apply (c : Dev nD) (i : grid0.Coords) (arg2 : Memref sig .tc .vmem S1x256x1024 .f32) (harg2 : arg2.IsWhole) (arg3 : Memref sig .tc .vmem S1x2048x1 .i32) (harg3 : arg3.IsWhole) (arg4 : Memref sig .tc .vmem S1x2048x1 .i32) (harg4 : arg4.IsWhole) (arg5 : Memref sig .tc .vmem S1x2048x1 .f32) (harg5 : arg5.IsWhole) (arg6 : Memref sig .tc .vmem S1x2048x1 .f32) (harg6 : arg6.IsWhole) (arg7 : Memref sig .tc .vmem S1x2048x256 .f32) (harg7 : arg7.IsWhole) (arg8 : Memref sig .tc .vmem S2048x256 .f32) (harg8 : arg8.IsWhole) (hc0 : ¬cond0_0 i) (hc1 : cond0_1 i)
    (x0 : Vec Ideal S1x256x1024 .f32) (x1 x2 : Vec Ideal S1x2048x1 .i32) (x3 x4 : Vec Ideal S1x2048x1 .f32) (xs0 : Vec Ideal S2048x256 .f32) (r : Fin 2048) (q : Fin 256) :
    out0_C_5 (F := Ideal) c i arg2 harg2 arg3 harg3 arg4 harg4 arg5 harg5 arg6 harg6 arg7 harg7 arg8 harg8 hc0 hc1 x0 x1 x2 x3 x4 xs0 (ix3 0 r q)
      = xs0 (ix2 r q) + tileSum (i 1).val (x1 (ix3 0 r 0)) (x2 (ix3 0 r 0)) (x3 (ix3 0 r 0)) (x4 (ix3 0 r 0)) (fun k => x0 (ix3 0 q k)) := by
  have hcov := scover0_C_0 (F := Ideal) c i arg2 harg2 arg3 harg3 arg4 harg4 arg5 harg5 arg6 harg6 arg7 harg7 arg8 harg8 hc0 hc1 x0 x1 x2 x3 x4 xs0 (ix2 r q)
  rw [runC_pieces] at hcov
  unfold out0_C_5
  rw [View.read_writes_junk_eq_canon, runC_out_pieces, View.canon_unit_zero (S := S1x2048x256) (by funext a; fin_cases a <;> rfl)]
  unfold k0_pay3
  refine (shapeCast_addUnit_apply (d := ![2048, 256]) _ _ (ix3 0 r q)).trans ?_
  rw [show (fun a : Fin 2 => ix3 (0 : Fin 1) r q a.succ) = ix2 r q from by funext a; match a with | ⟨0, _⟩ => rfl | ⟨1, _⟩ => rfl,
    View.readAt_eq_ld, View.ld_unit_zero (S := S2048x256) (by funext a; fin_cases a <;> rfl),
    View.read_writes_apply_eq_canon _ _ _ _ hcov,
    ← List.append_nil (pb_k0_t1 _ _ _ _ _ _ _ _ _ _ _ _ _ _ _ _ _ _ _ _ _ _ _ _ _)]
  refine (pb_canon c i arg2 harg2 arg3 harg3 arg4 harg4 arg5 harg5 arg6 harg6 arg7 harg7 arg8 harg8 (arg2.view.readAt (Elt Ideal) (Rect.unit (s := S1x256x1024) ![0, 0, 0] S1x256x1024.size inb_S1x256x1024_S1x256x1024_0_0_0).toLoadRect (harg2.unread x0)) (harg3.unread x1) (harg4.unread x2) (harg5.unread x3) (harg6.unread x4) (harg8.unread xs0) [] 4 (le_refl 4) r q (by have := r.isLt; omega)).trans ?_
  unfold tileAt
  rw [harg8.read_unread, harg3.read_unread, harg4.read_unread, harg5.read_unread, harg6.read_unread, v3_apply]

end Cert.Sampler

end
-- ==== Proof.Accumulate.lean ====
/-
  The accumulator after each grid point.

  Within a batch the eight length-tiles run in order; the first zeroes the accumulator and adds its tile's contribution, each later
  one adds its own. So after the point at length-tile s the accumulator's entry (r, q) is zero plus the contributions of tiles 0 .. s.
-/
import proofs.«149111_j50354196579100_1_alg».proof.Proof.Gen.KernelIdeal.Value
import proofs.«149111_j50354196579100_1_alg».proof.Proof.CasePieces

set_option maxRecDepth 16384

noncomputable section

namespace Cert.Sampler

open Idealize.ShloMosaic Idealize.ShloMosaic.TcCoe Idealize.SL.Sem Idealize.ShloMosaic.ValueIdx
open Cert.KernelIdeal Cert.KernelIdeal.Gen Cert.KernelIdeal.Value

variable (m : (ℓ : Loc nD τ sig) → Buf (Elt Ideal) ℓ)

/-- The contribution of grid point n (any natural; zero past the grid) to the accumulator's entry (r, q): its length-tile's sum
    over the blocks the point is given. -/
def tileAt (c : Dev nD) (n : ℕ) (r : Fin 2048) (q : Fin 256) : EReal :=
  if h : n < cfg0.N then
    tileSum (n % 8) ((iblk m c 1 ⟨n, h⟩ : Vec Ideal S1x2048x1 .i32) (ix3 0 r 0)) ((iblk m c 2 ⟨n, h⟩ : Vec Ideal S1x2048x1 .i32) (ix3 0 r 0))
      ((iblk m c 3 ⟨n, h⟩ : Vec Ideal S1x2048x1 .f32) (ix3 0 r 0)) ((iblk m c 4 ⟨n, h⟩ : Vec Ideal S1x2048x1 .f32) (ix3 0 r 0))
      (fun k => (iblk m c 0 ⟨n, h⟩ : Vec Ideal S1x256x1024 .f32) (ix3 0 q k))
  else 0

/-- The length-tile coordinate of grid point t is t % 8. -/
private theorem coords_tile : ∀ t : Fin cfg0.N, (grid0.coords t 1).val = t.val % 8 :=
  (by decide +kernel : ∀ t : Fin grid0.N, (grid0.coords t 1).val = t.val % 8)

/-- Inside the grid a point's contribution is its length-tile's sum over the point's own blocks. -/
private theorem tileAt_fin (c : Dev nD) (t : Fin cfg0.N) (r : Fin 2048) (q : Fin 256) :
    tileAt m c t.val r q =
      tileSum (t.val % 8) ((iblk m c 1 t : Vec Ideal S1x2048x1 .i32) (ix3 0 r 0)) ((iblk m c 2 t : Vec Ideal S1x2048x1 .i32) (ix3 0 r 0))
        ((iblk m c 3 t : Vec Ideal S1x2048x1 .f32) (ix3 0 r 0)) ((iblk m c 4 t : Vec Ideal S1x2048x1 .f32) (ix3 0 r 0))
        (fun k => (iblk m c 0 t : Vec Ideal S1x256x1024 .f32) (ix3 0 q k)) := by
  unfold tileAt
  rw [dif_pos t.isLt]

/-- A batch's first point zeroes the accumulator and adds its own tile's contribution. -/
private theorem step_first (c : Dev nD) (t : Fin cfg0.N) (h0 : t.val % 8 = 0) (r : Fin 2048) (q : Fin 256) :
    (outsAt0 m c t.val t.isLt).2 (ix2 r q) = (0 : EReal) + tileAt m c t.val r q := by
  have h1 : ¬t.val % 8 = 7 := by omega
  have key := sout0_A_0_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t) r q
  rw [coords_tile t] at key
  rw [outsAt0_A m c t h0 h1]
  dsimp only
  rw [tileAt_fin m c t r q]
  exact key

/-- Every later point of a batch adds its own tile's contribution to what the point before left. -/
private theorem step_later (c : Dev nD) (t : Fin cfg0.N) (h0 : ¬t.val % 8 = 0) (r : Fin 2048) (q : Fin 256) :
    (outsAt0 m c t.val t.isLt).2 (ix2 r q) = (outsAt0 m c (t.val - 1) (Nat.lt_of_le_of_lt (Nat.sub_le _ _) t.isLt)).2 (ix2 r q) + tileAt m c t.val r q := by
  by_cases h1 : t.val % 8 = 7
  · have key := sout0_C_0_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2 r q
    rw [coords_tile t] at key
    rw [outsAt0_C m c t h0 h1]
    dsimp only
    rw [tileAt_fin m c t r q]
    exact key
  · have key := sout0_B_0_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2 r q
    rw [coords_tile t] at key
    rw [outsAt0_B m c t h0 h1]
    dsimp only
    rw [tileAt_fin m c t r q]
    exact key

theorem scratch_after (c : Dev nD) (t : Fin cfg0.N) (r : Fin 2048) (q : Fin 256) :
    (outsAt0 m c t.val t.isLt).2 (ix2 r q) = (0 : EReal) + ∑ s ∈ Finset.range (t.val % 8 + 1), tileAt m c (8 * (t.val / 8) + s) r q := by
  -- by induction on the length-tile k = t % 8, over all points t of that tile
  have main : ∀ (k : ℕ) (t : Fin cfg0.N), t.val % 8 = k →
      (outsAt0 m c t.val t.isLt).2 (ix2 r q) = (0 : EReal) + ∑ s ∈ Finset.range (k + 1), tileAt m c (8 * (t.val / 8) + s) r q := by
    intro k
    induction k with
    | zero =>
      intro t hk
      have ht : 8 * (t.val / 8) + 0 = t.val := by omega
      rw [step_first m c t hk r q, Finset.sum_range_one, ht]
    | succ k ih =>
      intro t hk
      have h0 : ¬t.val % 8 = 0 := by omega
      have hp : t.val - 1 < cfg0.N := Nat.lt_of_le_of_lt (Nat.sub_le _ _) t.isLt
      have e := ih ⟨t.val - 1, hp⟩ (by show (t.val - 1) % 8 = k; omega)
      have hd : (t.val - 1) / 8 = t.val / 8 := by omega
      have ht : 8 * (t.val / 8) + (k + 1) = t.val := by omega
      dsimp only at e
      rw [hd] at e
      rw [step_later m c t h0 r q, e, Finset.sum_range_succ _ (k + 1), ht, add_assoc]
  exact main (t.val % 8) t rfl

/-- What the last length-tile's point writes back: its output block's entry (r, q) is zero plus all eight tiles' contributions. -/
theorem flushed_last (c : Dev nD) (t : Fin cfg0.N) (h7 : t.val % 8 = 7) (r : Fin 2048) (q : Fin 256) :
    ((outsAt0 m c t.val t.isLt).1 : Vec Ideal S1x2048x256 .f32) (ix3 0 r q) = (0 : EReal) + ∑ s ∈ Finset.range 8, tileAt m c (8 * (t.val / 8) + s) r q := by
  have h0 : ¬t.val % 8 = 0 := by omega
  have key := out0_C_5_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) (iblk m c 4 t) (outsAt0 m c (t.val - 1) (Nat.lt_of_le_of_lt (Nat.sub_le _ _) t.isLt)).2 r q
  rw [coords_tile t] at key
  have hp : t.val - 1 < cfg0.N := Nat.lt_of_le_of_lt (Nat.sub_le _ _) t.isLt
  -- the point before is the batch's tile 6: the accumulator there holds tiles 0 .. 6
  have e := scratch_after m c ⟨t.val - 1, hp⟩ r q
  have hd : (t.val - 1) / 8 = t.val / 8 := by omega
  have hm : (t.val - 1) % 8 + 1 = 7 := by omega
  have ht : 8 * (t.val / 8) + 7 = t.val := by omega
  dsimp only at e
  rw [hd, hm] at e
  rw [outsAt0_C m c t h0 h7]
  dsimp only
  rw [key, e, Finset.sum_range_succ _ 7, ht, tileAt_fin m c t r q, add_assoc]

end Cert.Sampler

end
-- ==== Proof.Blocks.lean ====
/-
  What the pipeline's blocks are, coordinate by coordinate.

  The grid's point t is (batch b, length-tile s) with b = t / 8 and s = t % 8. The input window's block there is the
  256 x 1024 slab input[b, :, s * 1024 + k]; each of the four column operands' blocks is the whole column [b, :, 0]; the
  output window's block is the whole slab [b, :, :].
-/
import proofs.«149111_j50354196579100_1_alg».proof.Proof.Gen.KernelIdeal.Frame
import Idealize.ShloMosaic.Lib.Pipeline.Value
import Idealize.ShloMosaic.Lib.ValueIdx

set_option maxRecDepth 16384

noncomputable section

namespace Cert.Sampler

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The printed index maps over the grid 32 x 8: the second grid coordinate of point t is the length-tile t % 8; the
    input window's block index there is (t / 8, 0, t % 8); each column operand's and the output window's is
    (t / 8, 0, 0). Finitely many points, each checked. -/
private theorem tile_index_facts : ∀ t : Fin cfg0.N, (grid0.coords t 1).val = t.val % 8
    ∧ win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0
    ∧ win0_4.index t (0 : Fin 3) = t.val / 8 ∧ win0_4.index t (1 : Fin 3) = 0 ∧ win0_4.index t (2 : Fin 3) = 0
    ∧ win0_5.index t (0 : Fin 3) = t.val / 8 ∧ win0_5.index t (1 : Fin 3) = 0 ∧ win0_5.index t (2 : Fin 3) = 0 :=
  (by decide +kernel : ∀ t : Fin grid0.N, _)

/-- The second grid coordinate of point t is its length-tile, t % 8. -/
theorem coord1 (t : Fin cfg0.N) : (grid0.coords t 1).val = t.val % 8 := by
  exact (tile_index_facts t).1

theorem iblk0_apply (c : Dev nD) (t : Fin cfg0.N) (q : Fin 256) (k : Fin 1024) :
    (iblk m c 0 t : Vec F S1x256x1024 .f32) (ix3 0 q k)
      = (V m c main_arg0 : Vec F S32x256x8192 .f32) (ix3 ⟨t.val / 8, (by have := t.isLt; have hN : cfg0.N = 256 := N_0; omega)⟩ q ⟨(t.val % 8) * 1024 + k.val, by have := k.isLt; omega⟩) := by
  -- a block's coordinate on an axis is (block index) * (block size) + (coordinate inside the block)
  obtain ⟨-, e0, e1, e2, -⟩ := tile_index_facts t
  show V m c main_arg0 (((cfg0.win 0).blk t).view.emb (ix3 0 q k)) = _
  refine congrArg (V m c main_arg0) ?_
  funext a; apply Fin.ext
  match a with
  | ⟨0, _⟩ => show win0_0.index t (0 : Fin 3) * 1 + 1 * 0 = t.val / 8; omega
  | ⟨1, _⟩ => show win0_0.index t (1 : Fin 3) * 256 + 1 * q.val = q.val; omega
  | ⟨2, _⟩ => show win0_0.index t (2 : Fin 3) * 1024 + 1 * k.val = t.val % 8 * 1024 + k.val; omega

theorem iblk1_apply (c : Dev nD) (t : Fin cfg0.N) (r : Fin 2048) :
    (iblk m c 1 t : Vec F S1x2048x1 .i32) (ix3 0 r 0) = (V m c main_v16 : Vec F S32x2048x1 .i32) (ix3 ⟨t.val / 8, (by have := t.isLt; have hN : cfg0.N = 256 := N_0; omega)⟩ r 0) := by
  -- a block's coordinate on an axis is (block index) * (block size) + (coordinate inside the block)
  obtain ⟨-, -, -, -, e0, e1, e2, -⟩ := tile_index_facts t
  show V m c main_v16 (((cfg0.win 1).blk t).view.emb (ix3 0 r 0)) = _
  refine congrArg (V m c main_v16) ?_
  funext a; apply Fin.ext
  match a with
  | ⟨0, _⟩ => show win0_1.index t (0 : Fin 3) * 1 + 1 * 0 = t.val / 8; omega
  | ⟨1, _⟩ => show win0_1.index t (1 : Fin 3) * 2048 + 1 * r.val = r.val; omega
  | ⟨2, _⟩ => show win0_1.index t (2 : Fin 3) * 1 + 1 * 0 = 0; omega

theorem iblk2_apply (c : Dev nD) (t : Fin cfg0.N) (r : Fin 2048) :
    (iblk m c 2 t : Vec F S1x2048x1 .i32) (ix3 0 r 0) = (V m c main_v17 : Vec F S32x2048x1 .i32) (ix3 ⟨t.val / 8, (by have := t.isLt; have hN : cfg0.N = 256 := N_0; omega)⟩ r 0) := by
  -- a block's coordinate on an axis is (block index) * (block size) + (coordinate inside the block)
  obtain ⟨-, -, -, -, -, -, -, e0, e1, e2, -⟩ := tile_index_facts t
  show V m c main_v17 (((cfg0.win 2).blk t).view.emb (ix3 0 r 0)) = _
  refine congrArg (V m c main_v17) ?_
  funext a; apply Fin.ext
  match a with
  | ⟨0, _⟩ => show win0_2.index t (0 : Fin 3) * 1 + 1 * 0 = t.val / 8; omega
  | ⟨1, _⟩ => show win0_2.index t (1 : Fin 3) * 2048 + 1 * r.val = r.val; omega
  | ⟨2, _⟩ => show win0_2.index t (2 : Fin 3) * 1 + 1 * 0 = 0; omega

theorem iblk3_apply (c : Dev nD) (t : Fin cfg0.N) (r : Fin 2048) :
    (iblk m c 3 t : Vec F S1x2048x1 .f32) (ix3 0 r 0) = (V m c main_v18 : Vec F S32x2048x1 .f32) (ix3 ⟨t.val / 8, (by have := t.isLt; have hN : cfg0.N = 256 := N_0; omega)⟩ r 0) := by
  -- a block's coordinate on an axis is (block index) * (block size) + (coordinate inside the block)
  obtain ⟨-, -, -, -, -, -, -, -, -, -, e0, e1, e2, -⟩ := tile_index_facts t
  show V m c main_v18 (((cfg0.win 3).blk t).view.emb (ix3 0 r 0)) = _
  refine congrArg (V m c main_v18) ?_
  funext a; apply Fin.ext
  match a with
  | ⟨0, _⟩ => show win0_3.index t (0 : Fin 3) * 1 + 1 * 0 = t.val / 8; omega
  | ⟨1, _⟩ => show win0_3.index t (1 : Fin 3) * 2048 + 1 * r.val = r.val; omega
  | ⟨2, _⟩ => show win0_3.index t (2 : Fin 3) * 1 + 1 * 0 = 0; omega

theorem iblk4_apply (c : Dev nD) (t : Fin cfg0.N) (r : Fin 2048) :
    (iblk m c 4 t : Vec F S1x2048x1 .f32) (ix3 0 r 0) = (V m c main_v19 : Vec F S32x2048x1 .f32) (ix3 ⟨t.val / 8, (by have := t.isLt; have hN : cfg0.N = 256 := N_0; omega)⟩ r 0) := by
  -- a block's coordinate on an axis is (block index) * (block size) + (coordinate inside the block)
  obtain ⟨-, -, -, -, -, -, -, -, -, -, -, -, -, e0, e1, e2, -⟩ := tile_index_facts t
  show V m c main_v19 (((cfg0.win 4).blk t).view.emb (ix3 0 r 0)) = _
  refine congrArg (V m c main_v19) ?_
  funext a; apply Fin.ext
  match a with
  | ⟨0, _⟩ => show win0_4.index t (0 : Fin 3) * 1 + 1 * 0 = t.val / 8; omega
  | ⟨1, _⟩ => show win0_4.index t (1 : Fin 3) * 2048 + 1 * r.val = r.val; omega
  | ⟨2, _⟩ => show win0_4.index t (2 : Fin 3) * 1 + 1 * 0 = 0; omega

/-- The output window's block at point t sits at batch t / 8 of the result array. -/
theorem blk5_emb (t : Fin cfg0.N) (r : Fin 2048) (q : Fin 256) :
    ((cfg0.win 5).blk t).view.emb (ix3 0 r q) = (ix3 ⟨t.val / 8, (by have := t.isLt; have hN : cfg0.N = 256 := N_0; omega)⟩ r q : S32x2048x256.Idx) := by
  obtain ⟨-, -, -, -, -, -, -, -, -, -, -, -, -, -, -, -, e0, e1, e2⟩ := tile_index_facts t
  funext a; apply Fin.ext
  match a with
  | ⟨0, _⟩ => show win0_5.index t (0 : Fin 3) * 1 + 1 * 0 = t.val / 8; omega
  | ⟨1, _⟩ => show win0_5.index t (1 : Fin 3) * 2048 + 1 * r.val = r.val; omega
  | ⟨2, _⟩ => show win0_5.index t (2 : Fin 3) * 256 + 1 * q.val = q.val; omega

/-- The output window is written back exactly at the last length-tile of each batch. -/
theorem flush5_iff (t : Fin cfg0.N) : (cfg0.win 5).flush t = true ↔ t.val % 8 = 7 := by
  -- the generated schedule states the window's write-back points in this closed form
  exact flush0_5 t

end Cert.Sampler

end
-- ==== Proof.HostArrays.lean ====
/-
  The four column operands the kernel region finds are the shared host operations' results: entry [b, r, 0] of each is the
  reference's own stage for the tap or the weight at [b, r] (the kernel lays them out as [32, 2048, 1], the reference as [32, 1, 2048]).
-/
import proofs.«149111_j50354196579100_1_alg».proof.Proof.Gen.KernelIdeal.Frame
import proofs.«149111_j50354196579100_1_alg».proof.Proof.RefRead
import Idealize.ShloMosaic.Lib.Pipeline.Value
import Idealize.ShloMosaic.Lib.StableHlo.Run
import Idealize.ShloMosaic.Lib.ValueIdx

set_option maxRecDepth 16384

noncomputable section

namespace Cert.Sampler

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- A [32, 2048] array broadcast along axes [0, 1] to [32, 2048, 1], read at (b, r, 0), is the array at (b, r): neither
    operand axis has extent one, so each operand coordinate is the result's coordinate on the axis it is sent to. -/
private theorem bcast_col_apply {α : Type} (x : S32x2048.Idx → α) (b : Fin 32) (r : Fin 2048) :
    broadcastInDim S32x2048x1 ![0, 1] bcast_S32x2048_S32x2048x1_0_1 x (ix3 b r 0) = x (ix2 b r) :=
  broadcastInDim_apply _ bcast_S32x2048_S32x2048x1_0_1 x (ix3 b r 0) (ix2 b r) (fun a => match a with
    | ⟨0, _⟩ => by show b.val = if (32 : Nat) = 1 then 0 else b.val; rw [if_neg (by decide)]
    | ⟨1, _⟩ => by show r.val = if (2048 : Nat) = 1 then 0 else r.val; rw [if_neg (by decide)])

/-! ## Each column operand, as a whole array

Before the region the kernel program applies to its two argument arrays the very operations the reference applies to its own
(reshape, the scaled offset added, the clip to [0, 8191], floor and ceiling, the conversion, the integer clamp, and for the
weights the two subtractions); only the last broadcast differs. So each operand is that broadcast of the reference's stage, and
the equation holds by unfolding both sides' definitions, for any float family. -/

/-- Tap 0: the clamped floor of the clipped position. -/
private theorem V_tap0_eq (c : Dev nD) :
    (V m c main_v16 : Vec F S32x2048x1 .i32) =
      broadcastInDim S32x2048x1 ![0, 1] bcast_S32x2048_S32x2048x1_0_1
        (Cert.ReferenceIdeal.ReadP.val_main_v8 (F := F) (m ((c : Thread nD τ).loc main_arg1)) (m ((c : Thread nD τ).loc main_arg2))) := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

/-- Tap 1: the clamped ceiling of the clipped position. -/
private theorem V_tap1_eq (c : Dev nD) :
    (V m c main_v17 : Vec F S32x2048x1 .i32) =
      broadcastInDim S32x2048x1 ![0, 1] bcast_S32x2048_S32x2048x1_0_1
        (Cert.ReferenceIdeal.ReadP.val_main_v11 (F := F) (m ((c : Thread nD τ).loc main_arg1)) (m ((c : Thread nD τ).loc main_arg2))) := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

/-- Weight 0: one minus the fractional part of the clipped position. -/
private theorem V_w0_eq (c : Dev nD) :
    (V m c main_v18 : Vec F S32x2048x1 .f32) =
      broadcastInDim S32x2048x1 ![0, 1] bcast_S32x2048_S32x2048x1_0_1
        (Cert.ReferenceIdeal.ReadP.val_main_v15 (F := F) (m ((c : Thread nD τ).loc main_arg1)) (m ((c : Thread nD τ).loc main_arg2))) := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

/-- Weight 1: the fractional part of the clipped position (the position minus tap 0). -/
private theorem V_w1_eq (c : Dev nD) :
    (V m c main_v19 : Vec F S32x2048x1 .f32) =
      broadcastInDim S32x2048x1 ![0, 1] bcast_S32x2048_S32x2048x1_0_1
        (Cert.ReferenceIdeal.ReadP.val_main_v13 (F := F) (m ((c : Thread nD τ).loc main_arg1)) (m ((c : Thread nD τ).loc main_arg2))) := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

/-! ## Read at (b, r, 0) -/

theorem V_tap0_apply (c : Dev nD) (b : Fin 32) (r : Fin 2048) :
    (V m c main_v16 : Vec F S32x2048x1 .i32) (ix3 b r 0) = Cert.ReferenceIdeal.ReadP.val_main_v8 (F := F) (m ((c : Thread nD τ).loc main_arg1)) (m ((c : Thread nD τ).loc main_arg2)) (ix2 b r) :=
  (congrFun (V_tap0_eq m c) (ix3 b r 0)).trans (bcast_col_apply _ b r)

theorem V_tap1_apply (c : Dev nD) (b : Fin 32) (r : Fin 2048) :
    (V m c main_v17 : Vec F S32x2048x1 .i32) (ix3 b r 0) = Cert.ReferenceIdeal.ReadP.val_main_v11 (F := F) (m ((c : Thread nD τ).loc main_arg1)) (m ((c : Thread nD τ).loc main_arg2)) (ix2 b r) :=
  (congrFun (V_tap1_eq m c) (ix3 b r 0)).trans (bcast_col_apply _ b r)

theorem V_w0_apply (c : Dev nD) (b : Fin 32) (r : Fin 2048) :
    (V m c main_v18 : Vec F S32x2048x1 .f32) (ix3 b r 0) = Cert.ReferenceIdeal.ReadP.val_main_v15 (F := F) (m ((c : Thread nD τ).loc main_arg1)) (m ((c : Thread nD τ).loc main_arg2)) (ix2 b r) :=
  (congrFun (V_w0_eq m c) (ix3 b r 0)).trans (bcast_col_apply _ b r)

theorem V_w1_apply (c : Dev nD) (b : Fin 32) (r : Fin 2048) :
    (V m c main_v19 : Vec F S32x2048x1 .f32) (ix3 b r 0) = Cert.ReferenceIdeal.ReadP.val_main_v13 (F := F) (m ((c : Thread nD τ).loc main_arg1)) (m ((c : Thread nD τ).loc main_arg2)) (ix2 b r) :=
  (congrFun (V_w1_eq m c) (ix3 b r 0)).trans (bcast_col_apply _ b r)

end Cert.Sampler

end
-- ==== Proof.KernelValue.lean ====
/-
  The kernel's result array as one function of its arguments.

  Entry (b, j, c) of the result is the row sum of sampling point (b, j) -- its two taps and two weights, which the host
  operations before the region compute -- against row (b, c) of the input: the accumulator is zeroed at the batch's first
  length-tile, each of the eight tiles adds its contribution, and the last tile's point writes the accumulator out as
  the batch's slab of the result. The slabs of the 32 batches cover the result.
-/
import proofs.«149111_j50354196579100_1_alg».proof.Proof.Gen.KernelIdeal.Value
import proofs.«149111_j50354196579100_1_alg».proof.Proof.Accumulate
import proofs.«149111_j50354196579100_1_alg».proof.Proof.Blocks
import proofs.«149111_j50354196579100_1_alg».proof.Proof.HostArrays

set_option maxRecDepth 16384

noncomputable section

namespace Cert.Sampler

open Idealize.ShloMosaic Idealize.ShloMosaic.TcCoe Idealize.SL.Sem Idealize.ShloMosaic.ValueIdx
open Cert.KernelIdeal Cert.KernelIdeal.Gen Cert.KernelIdeal.Value

/-- The result as a function of the input x0, the taps I0, I1 and the weights W0, W1: entry (b, j, c) is the row sum of point
    (b, j) against the input's row (b, c). -/
def Gk (x0 : Vec Ideal S32x256x8192 .f32) (I0 I1 : IVec S32x2048 32) (W0 W1 : FVec Ideal S32x2048 .f32) :
    Vec Ideal S32x2048x256 .f32 := fun y =>
  let b : Fin 32 := y 0
  let j : Fin 2048 := y 1
  let c : Fin 256 := y 2
  rowSum (I0 (ix2 b j)) (I1 (ix2 b j)) (W0 (ix2 b j)) (W1 (ix2 b j)) (fun l => x0 (ix3 b c l))

theorem Gk_apply (x0 : Vec Ideal S32x256x8192 .f32) (I0 I1 : IVec S32x2048 32) (W0 W1 : FVec Ideal S32x2048 .f32)
    (b : Fin 32) (j : Fin 2048) (c : Fin 256) :
    Gk x0 I0 I1 W0 W1 (ix3 b j c)
      = rowSum (I0 (ix2 b j)) (I1 (ix2 b j)) (W0 (ix2 b j)) (W1 (ix2 b j)) (fun l => x0 (ix3 b c l)) := rfl

variable (m : (ℓ : Loc nD τ sig) → Buf (Elt Ideal) ℓ) (ρ : Dev nD → PrngReg)

/-- The input array as launched. -/
abbrev aX (c : Dev nD) : Vec Ideal S32x256x8192 .f32 := (m ((c : Thread nD τ).loc main_arg0))
/-- The first tap of every sampling point, from the two location arguments. -/
abbrev aI0 (c : Dev nD) : IVec S32x2048 32 := Cert.ReferenceIdeal.ReadP.val_main_v8 (F := Ideal) (m ((c : Thread nD τ).loc main_arg1)) (m ((c : Thread nD τ).loc main_arg2))
/-- The second tap. -/
abbrev aI1 (c : Dev nD) : IVec S32x2048 32 := Cert.ReferenceIdeal.ReadP.val_main_v11 (F := Ideal) (m ((c : Thread nD τ).loc main_arg1)) (m ((c : Thread nD τ).loc main_arg2))
/-- The first tap's weight. -/
abbrev aW0 (c : Dev nD) : FVec Ideal S32x2048 .f32 := Cert.ReferenceIdeal.ReadP.val_main_v15 (F := Ideal) (m ((c : Thread nD τ).loc main_arg1)) (m ((c : Thread nD τ).loc main_arg2))
/-- The second tap's weight. -/
abbrev aW1 (c : Dev nD) : FVec Ideal S32x2048 .f32 := Cert.ReferenceIdeal.ReadP.val_main_v13 (F := Ideal) (m ((c : Thread nD τ).loc main_arg1)) (m ((c : Thread nD τ).loc main_arg2))

/-- The contribution of the point at batch b, length-tile s, over the argument arrays: the tile's sum for row r's taps and weights
    against the input's positions s * 1024 .. s * 1024 + 1023 of row (b, q). -/
theorem tileAt_point (c : Dev nD) (b : Fin 32) (s : Fin 8) (r : Fin 2048) (q : Fin 256) :
    tileAt m c (8 * b.val + s.val) r q
      = tileSum s.val (aI0 m c (ix2 b r)) (aI1 m c (ix2 b r)) (aW0 m c (ix2 b r)) (aW1 m c (ix2 b r))
          (fun k => aX m c (ix3 b q ⟨(s.val % 8) * 1024 + k.val, by have := k.isLt; have := s.isLt; omega⟩)) := by
  have hN : cfg0.N = 256 := N_0
  have hb := b.isLt
  have hs := s.isLt
  have hlt : 8 * b.val + s.val < cfg0.N := by omega
  have e8 : (8 * b.val + s.val) % 8 = s.val := by omega
  have hbq : ∀ p : (8 * b.val + s.val) / 8 < 32, (⟨(8 * b.val + s.val) / 8, p⟩ : Fin 32) = b := fun p => Fin.ext (by show (8 * b.val + s.val) / 8 = b.val; omega)
  unfold tileAt
  rw [dif_pos hlt, iblk1_apply m c ⟨_, hlt⟩ r, iblk2_apply m c ⟨_, hlt⟩ r, iblk3_apply m c ⟨_, hlt⟩ r, iblk4_apply m c ⟨_, hlt⟩ r]
  simp only [hbq, e8]
  rw [V_tap0_apply, V_tap1_apply, V_w0_apply, V_w1_apply]
  congr 1
  funext k
  rw [iblk0_apply m c ⟨_, hlt⟩ q k]
  simp only [hbq, e8]
  rw [V_main_arg0]
  exact congrArg (fun l : Fin 8192 => (m ((c : Thread nD τ).loc main_arg0)) (ix3 b q l))
    (Fin.ext (by show s.val * 1024 + k.val = s.val % 8 * 1024 + k.val; omega))

/-- The kernel's result over the launch contents of its three arguments. -/
abbrev GkOf (c : Dev nD) : Vec Ideal S32x2048x256 .f32 := Gk (aX m c) (aI0 m c) (aI1 m c) (aW0 m c) (aW1 m c)

/-- What the last length-tile's point of batch t / 8 leaves in its output block is that batch's slab of the result. -/
theorem out_last (c : Dev nD) (t : Fin cfg0.N) (h7 : t.val % 8 = 7) (r : Fin 2048) (q : Fin 256) :
    ((outsAt0 m c t.val t.isLt).1 : Vec Ideal S1x2048x256 .f32) (ix3 0 r q)
      = GkOf m c (ix3 ⟨t.val / 8, by have := t.isLt; have hN : cfg0.N = 256 := N_0; omega⟩ r q) := by
  have hN : cfg0.N = 256 := N_0
  have ht := t.isLt
  have hb : t.val / 8 < 32 := by omega
  refine (flushed_last m c t h7 r q).trans (Eq.trans ?_ (Gk_apply (aX m c) (aI0 m c) (aI1 m c) (aW0 m c) (aW1 m c) ⟨t.val / 8, hb⟩ r q).symm)
  unfold rowSum
  congr 1
  refine Finset.sum_congr rfl fun s hs => ?_
  have hs8 : s < 8 := Finset.mem_range.mp hs
  exact tileAt_point m c ⟨t.val / 8, hb⟩ ⟨s, hs8⟩ r q

/-- Every index of the output block is (0, its row, its column). -/
theorem blkIdx_eq (y : S1x2048x256.Idx) : ∃ (r : Fin 2048) (q : Fin 256), y = ix3 (0 : Fin 1) r q := by
  refine ⟨y 1, y 2, ?_⟩
  funext a
  match a with
  | ⟨0, _⟩ => exact Fin.ext (by have h : (y 0).val < 1 := (y 0).isLt; show (y 0).val = 0; omega)
  | ⟨1, _⟩ => rfl
  | ⟨2, _⟩ => rfl

/-- WHAT A FLUSHING POINT WRITES BACK is its block of the result. -/
theorem flushed5_eq (c : Dev nD) (t : Fin cfg0.N) (hf : (cfg0.win 5).flush t = true) :
    (dats m 0 c).flushed 5 t = ((cfg0.win 5).blk t).view.read (Elt Ideal) (GkOf m c) := by
  have h7 : t.val % 8 = 7 := (flush5_iff t).mp hf
  rw [flushed5]
  show ((outsAt0 m c t.val t.isLt).1 : S1x2048x256.Idx → EReal) = (((cfg0.win 5).blk t).view.read (Elt Ideal) (GkOf m c) : S1x2048x256.Idx → EReal)
  funext y
  obtain ⟨r, q, rfl⟩ := blkIdx_eq y
  show _ = GkOf m c (((cfg0.win 5).blk t).view.emb (ix3 (0 : Fin 1) r q))
  rw [blk5_emb t r q]
  exact out_last m c t h7 r q

/-- The 32 slabs cover the result: index (b, j, c) lies in the block of batch b's last point. -/
theorem cover5 (i : S32x2048x256.Idx) :
    ∃ t : Fin cfg0.N, (cfg0.win 5).flush t = true ∧ i ∈ ((cfg0.win 5).blk t).view.set := by
  have hN : cfg0.N = 256 := N_0
  have h0 : (i 0).val < 32 := (i 0).isLt
  obtain ⟨t0, ht0⟩ : ∃ t0 : Fin cfg0.N, t0.val = 8 * (i 0).val + 7 := ⟨⟨8 * (i 0).val + 7, by omega⟩, rfl⟩
  refine ⟨t0, (flush5_iff t0).mpr (by omega), ?_⟩
  have e : ((cfg0.win 5).blk t0).view.emb (ix3 (0 : Fin 1) (i 1 : Fin 2048) (i 2 : Fin 256)) = i := by
    rw [blk5_emb t0 (i 1 : Fin 2048) (i 2 : Fin 256)]
    funext a
    match a with
    | ⟨0, _⟩ => exact Fin.ext (by show t0.val / 8 = (i 0).val; omega)
    | ⟨1, _⟩ => rfl
    | ⟨2, _⟩ => rfl
  have hm := ((cfg0.win 5).blk t0).view.emb_mem_set (ix3 (0 : Fin 1) (i 1 : Fin 2048) (i 2 : Fin 256))
  rwa [e] at hm

/-- THE RESULT ARRAY after the run. -/
theorem final5 (c : Dev nD) : (dats m 0 c).arrAt 5 cfg0.N = GkOf m c :=
  (dats m 0 c).arrAt_eq_of_cover 5 (GkOf m c) (fun t hf => flushed5_eq m c t hf) cover5

/-- The kernel's run with its result named: every weakly fair execution ends with the result array at Gk of the launch
    contents of the arguments, which are unchanged. -/
theorem kernel_run : θ_run defs (onTc (τ := τ) (main (F := Ideal))) ⟨m, fun _ => 0, ρ⟩ fun r => ∀ c : Dev nD,
      r.2.mem ((c : Thread nD τ).loc main_v20) = GkOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final5 m c), (h c).2⟩) (run_blocks m ρ)

end Cert.Sampler

end
-- ==== Proof.HostChain.lean ====
/-
  The host operations both programs share, and what they guarantee.

  Both programs form the sampling location loc = min(8191, max(0, point + 1 * offset)), the taps
  idx0 = clamp(int(floor loc), 0, 8191) and idx1 = clamp(int(ceil loc), 0, 8191) as 32-bit words, and the weights
  w1 = loc - float(idx0) and w0 = 1 - w1. The integer clamp leaves each tap between 0 and 8191 whatever the conversion
  gave; the location lies between 0 and 8191 whatever the inputs are, so it is a real number, a word converted to a float is a
  real number, and so are the two weights.
-/
import proofs.«149111_j50354196579100_1_alg».proof.Proof.RefRead
import Idealize.ShloMosaic.Lib.StableHlo.Predicate
import Idealize.ShloMosaic.Lib.ValueIdx

noncomputable section

namespace Cert.Sampler

open Idealize.ShloMosaic Idealize.ShloMosaic.TcCoe Idealize.SL.Sem Idealize.ShloMosaic.ValueIdx
open Cert.ReferenceIdeal Cert.ReferenceIdeal.ReadP

variable {F : FTy → Type} [FloatOps F]

/-! ### The integer clamp -/

/-- Clamping a signed 32-bit word to [0, 8191] leaves a word whose unsigned reading is at most 8191. The signed
    maximum with 0 is 0 when the word is negative and the word itself otherwise; the signed minimum with 8191 is
    8191 when that exceeds 8191 and is it otherwise. In the one case where the word itself survives it is
    non-negative and at most 8191 as a signed number, so its sign bit is clear and the two readings agree. -/
private theorem clamp_toNat_lt (w : BitVec 32) :
    (IntOp.minsi (8191#32) (IntOp.maxsi (0#32) w)).toNat < 8192 := by
  have e0 : (0#32 : BitVec 32).toInt = 0 := by decide
  have e1 : (8191#32 : BitVec 32).toInt = 8191 := by decide
  unfold IntOp.minsi IntOp.maxsi
  simp only [BitVec.slt, decide_eq_true_eq, e0]
  by_cases h0 : w.toInt < 0
  · simp only [if_pos h0, e0, e1]
    decide
  · simp only [if_neg h0, e1]
    by_cases h1 : 8191 < w.toInt
    · rw [if_pos h1]; decide
    · rw [if_neg h1]
      have hw := BitVec.toInt_eq_toNat_cond w
      have hl := w.isLt
      split at hw <;> omega

/-- The first tap is a position of the length axis. -/
theorem tap0_lt (x1 x2 : (⟨S32x2048x1, .f32⟩ : BufTy).Contents (Elt F)) (i : S32x2048.Idx) :
    (val_main_v8 (F := F) x1 x2 i : BitVec 32).toNat < 8192 := by
  rw [val_main_v8_apply, val_main_call1_v4_apply, val_main_call1_v3_apply, val_main_c_2_apply,
    val_main_call1_v2_apply, val_main_call1_v1_apply, val_main_call1_v0_apply, val_main_c_1_apply]
  exact clamp_toNat_lt _

/-- The second tap is a position of the length axis. -/
theorem tap1_lt (x1 x2 : (⟨S32x2048x1, .f32⟩ : BufTy).Contents (Elt F)) (i : S32x2048.Idx) :
    (val_main_v11 (F := F) x1 x2 i : BitVec 32).toNat < 8192 := by
  rw [val_main_v11_apply, val_main_call2_v4_apply, val_main_call2_v3_apply, val_main_c_4_apply,
    val_main_call2_v2_apply, val_main_call2_v1_apply, val_main_call2_v0_apply, val_main_c_3_apply]
  exact clamp_toNat_lt _

/-! ### The weights are real numbers -/

/-- An extended real clamped between two reals is a real: at minus infinity the inner maximum is the lower bound,
    at plus infinity the outer minimum is the upper bound, and on a real the clamp is the clamp of reals. -/
private theorem clip_real (a b : ℝ) (x : EReal) :
    ∃ r : ℝ, min (a : EReal) (max (b : EReal) x) = (r : EReal) := by
  induction x using EReal.rec with
  | bot => exact ⟨min a b, by rw [max_bot_right, EReal.coe_strictMono.monotone.map_min]⟩
  | top => exact ⟨a, by rw [max_top_right, min_top_right]⟩
  | coe x =>
    exact ⟨min a (max b x),
      by rw [EReal.coe_strictMono.monotone.map_min, EReal.coe_strictMono.monotone.map_max]⟩

/-- The pattern of 0.0 denotes a real number (zero). -/
private theorem zero_real : ∃ r : ℝ, Ideal.ofBits .f32 0x00000000#32 = (r : EReal) :=
  ⟨0, by simp [Ideal.ofBits, Ideal.ieee]⟩

/-- The pattern of 1.0 denotes a real number: its exponent field is neither all ones nor zero, so it is a normal
    number, the coercion of a real. -/
private theorem one_real : ∃ r : ℝ, Ideal.ofBits .f32 0x3F800000#32 = (r : EReal) := by
  simp only [Ideal.ofBits, Ideal.ieee]
  rw [if_neg (by decide), if_neg (by decide)]
  exact ⟨_, rfl⟩

/-- A word converted to a float is its signed reading, a real number. -/
private theorem sitofp_real (b : BitVec 32) :
    (FloatOps.sitofp .f32 b : Ideal .f32) = ((b.toInt : ℝ) : EReal) := rfl

/-- The sampling location min(8191, max(0, v)) is a real number whatever extended real v is. -/
private theorem loc_real (x1 x2 : (⟨S32x2048x1, .f32⟩ : BufTy).Contents (Elt Ideal)) (i : S32x2048.Idx) :
    ∃ r : ℝ, (val_main_v5 (F := Ideal) x1 x2 i : EReal) = (r : EReal) := by
  rw [val_main_v5_apply, val_main_call0_v4_apply, val_main_call0_v3_apply, val_main_c_apply,
    val_main_call0_v2_apply, val_main_call0_v1_apply, val_main_call0_v0_apply, val_main_cst_0_apply]
  obtain ⟨z, hz⟩ := zero_real
  rw [Ideal.minimumf_def, Ideal.maximumf_def, Ideal.ofBits_def, sitofp_real, hz]
  exact clip_real _ _ _

/-- The second tap's weight is a real number. -/
theorem w1_real (x1 x2 : (⟨S32x2048x1, .f32⟩ : BufTy).Contents (Elt Ideal)) (i : S32x2048.Idx) :
    ∃ r : ℝ, (val_main_v13 (F := Ideal) x1 x2 i : EReal) = (r : EReal) := by
  obtain ⟨r, hr⟩ := loc_real x1 x2 i
  rw [val_main_v13_apply, val_main_v12_apply, Ideal.subf_def, sitofp_real, hr]
  exact ⟨r - _, EReal.coe_sub _ _⟩

/-- The first tap's weight is a real number. -/
theorem w0_real (x1 x2 : (⟨S32x2048x1, .f32⟩ : BufTy).Contents (Elt Ideal)) (i : S32x2048.Idx) :
    ∃ r : ℝ, (val_main_v15 (F := Ideal) x1 x2 i : EReal) = (r : EReal) := by
  obtain ⟨r, hr⟩ := w1_real x1 x2 i
  obtain ⟨u, hu⟩ := one_real
  rw [val_main_v15_apply, val_main_v14_apply, val_main_cst_5_apply, Ideal.subf_def, Ideal.ofBits_def, hu, hr]
  exact ⟨u - r, EReal.coe_sub _ _⟩

end Cert.Sampler

end
-- ==== Proof.RefValue.lean ====
/-
  The reference read at an entry.

  Entry (b, j, c) of the result is w0[b, j] * input[b, c, idx0[b, j]] + w1[b, j] * input[b, c, idx1[b, j]]:
  the transpose swaps the last two axes; each take along the length axis is a gather whose start index is the tap, kept
  as it is because it is not negative, read in range because it is at most 8191, so the mask that would put the fill value
  there is all ones.
-/
import proofs.«149111_j50354196579100_1_alg».proof.Proof.RefRead
import proofs.«149111_j50354196579100_1_alg».proof.Proof.HostChain
import Idealize.ShloMosaic.Lib.ValueIdx
import Idealize.ShloMosaic.Lib.StableHlo.Predicate
import Idealize.ShloMosaic.Lib.ReduceAll
import Idealize.ShloMosaic.PureOps.Ideal.Laws

noncomputable section

namespace Cert.Sampler

open Idealize.ShloMosaic Idealize.ShloMosaic.TcCoe Idealize.SL.Sem Idealize.ShloMosaic.ValueIdx
open Cert.ReferenceIdeal Cert.ReferenceIdeal.ReadP

/-! ## Words: a tap below 8192 against the take's three tests -/

/-- A word below 8192 is not negative read signed: "less than 0" answers 0. -/
private theorem slt_zero_of_lt {t : BitVec 32} (h : t.toNat < 8192) : IntOp.cmpi .slt t 0#32 = 0#1 := by
  refine eq_zero_of_ne_one fun e => ?_
  exact Nat.not_lt_zero _ ((StableHlo.Predicate.slt_iff_toNat (a := t) (b := 0#32) (by omega) (by decide)).1 e)

/-- "At least 0" answers 1. -/
private theorem sge_zero_of_lt {t : BitVec 32} (h : t.toNat < 8192) : IntOp.cmpi .sge t 0#32 = 1#1 :=
  (StableHlo.Predicate.sge_iff_toNat (a := t) (b := 0#32) (by omega) (by decide)).2 (Nat.zero_le _)

/-- "At most 8191" answers 1. -/
private theorem sle_last_of_lt {t : BitVec 32} (h : t.toNat < 8192) : IntOp.cmpi .sle t 8191#32 = 1#1 :=
  (StableHlo.Predicate.sle_iff_toNat (a := t) (b := 8191#32) (by omega) (by decide)).2 (by show t.toNat ≤ 8191; omega)

/-- Read signed and clamped into [0, 8191], a word below 8192 is its own value. -/
private theorem clamp_of_lt {t : BitVec 32} (h : t.toNat < 8192) : min t.toInt.toNat (8192 - 1) = t.toNat := by
  rw [StableHlo.Predicate.toInt_eq_toNat_of_lt (by omega), Int.toNat_natCast]; omega

/-! ## A reduction by "and" of bits that are all 1, from 1, is 1 -/

private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, IntOp.andi_eq_one.2 ⟨rfl, rfl⟩]
    exact foldl_andi_one f hf l

private theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

/-! ## The gather read at an entry

The operand is [32, 256, 8192], the start indices [32, 2048, 1], the result [32, 256, 2048]. Axis 0 of the operand is the batching
axis, paired with axis 0 of the start indices; axis 1 is the one offset axis, whole (slice size 256); axis 2 is collapsed and is
the axis the start index names. So result entry (b, c, j) is the operand at (b, c, s) with s the start index at (b, j, 0) read
signed and clamped into [0, 8191]. -/

/-- The start-indices entry that result entry (b, c, j) reads its one start index from: (b, j, 0). -/
private theorem gather_siIdx (b : Fin 32) (c : Fin 256) (j : Fin 2048) :
    gather_S32x256x8192_S32x2048x1_S32x256x2048_1_2_0_0_2_2_12561.siIdx (ix3 b c j)
      ⟨List.idxOf (2 : Fin 3) gather_S32x256x8192_S32x2048x1_S32x256x2048_1_2_0_0_2_2_12561.startIndexMap,
        List.idxOf_lt_length_iff.2 (List.mem_singleton.mpr rfl)⟩ = ix3 b j (0 : Fin 1) := by
  funext a; refine Fin.ext ?_
  match a with
  | ⟨0, _⟩ => rfl
  | ⟨1, _⟩ => rfl
  | ⟨2, _⟩ => rfl

/-- Axis 0, the batching axis: no start, no offset, the result's batch coordinate b. -/
private theorem gather_axis0 {w : Nat} (idx : IVec S32x2048x1 w) (b : Fin 32) (c : Fin 256) (j : Fin 2048) :
    gather_S32x256x8192_S32x2048x1_S32x256x2048_1_2_0_0_2_2_12561.start (ix3 b c j) idx 0
      + gather_S32x256x8192_S32x2048x1_S32x256x2048_1_2_0_0_2_2_12561.batchCoord (ix3 b c j) 0
      + gather_S32x256x8192_S32x2048x1_S32x256x2048_1_2_0_0_2_2_12561.offCoord (ix3 b c j) 0 = b.val := by
  rw [GatherDims.start_batching _ _ _ _ (List.mem_singleton.mpr rfl),
    GatherDims.offCoord_eq_zero _ _ _ (fun h => ((GatherDims.mem_sKept _ _).mp h).2 (List.mem_singleton.mpr rfl)),
    Nat.zero_add, Nat.add_zero]
  rfl

/-- Axis 1, the offset axis: no start (the start index does not name it), no batch coordinate, the result's coordinate c. -/
private theorem gather_axis1 {w : Nat} (idx : IVec S32x2048x1 w) (b : Fin 32) (c : Fin 256) (j : Fin 2048) :
    gather_S32x256x8192_S32x2048x1_S32x256x2048_1_2_0_0_2_2_12561.start (ix3 b c j) idx 1
      + gather_S32x256x8192_S32x2048x1_S32x256x2048_1_2_0_0_2_2_12561.batchCoord (ix3 b c j) 1
      + gather_S32x256x8192_S32x2048x1_S32x256x2048_1_2_0_0_2_2_12561.offCoord (ix3 b c j) 1 = c.val := by
  rw [GatherDims.batchCoord_eq_zero _ _ _ (by decide), Nat.add_zero]
  unfold GatherDims.start
  rw [dif_neg (by decide), Nat.zero_add]
  rfl

/-- Axis 2, the collapsed axis the start index names: the start index at (b, j, 0), read signed and clamped; no batch
    coordinate, no offset. -/
private theorem gather_axis2 {w : Nat} (idx : IVec S32x2048x1 w) (b : Fin 32) (c : Fin 256) (j : Fin 2048) :
    gather_S32x256x8192_S32x2048x1_S32x256x2048_1_2_0_0_2_2_12561.start (ix3 b c j) idx 2
      + gather_S32x256x8192_S32x2048x1_S32x256x2048_1_2_0_0_2_2_12561.batchCoord (ix3 b c j) 2
      + gather_S32x256x8192_S32x2048x1_S32x256x2048_1_2_0_0_2_2_12561.offCoord (ix3 b c j) 2
      = min (idx (ix3 b j (0 : Fin 1))).toInt.toNat (8192 - 1) := by
  rw [GatherDims.batchCoord_eq_zero _ _ _ (by decide),
    GatherDims.offCoord_eq_zero _ _ _ (fun h => ((GatherDims.mem_sKept _ _).mp h).1 (List.mem_singleton.mpr rfl))]
  simp only [Nat.add_zero]
  unfold GatherDims.start
  rw [dif_pos (show (2 : Fin 3) ∈ gather_S32x256x8192_S32x2048x1_S32x256x2048_1_2_0_0_2_2_12561.startIndexMap from List.mem_singleton.mpr rfl),
    gather_siIdx]
  rfl

/-- The gather at entry (b, c, j), when the start index at (b, j, 0) is a position of the length axis: the operand at
    (b, c, that position). -/
private theorem gather_read {α : Type} (x : S32x256x8192.Idx → α) (idx : IVec S32x2048x1 32) (b : Fin 32) (c : Fin 256) (j : Fin 2048)
    (h : (idx (ix3 b j (0 : Fin 1))).toNat < 8192) :
    Host.gather gather_S32x256x8192_S32x2048x1_S32x256x2048_1_2_0_0_2_2_12561 x idx (ix3 b c j)
      = x (ix3 b c ⟨(idx (ix3 b j (0 : Fin 1))).toNat, h⟩) := by
  unfold Host.gather
  congr 1
  funext a; refine Fin.ext ?_
  match a with
  | ⟨0, _⟩ => exact gather_axis0 idx b c j
  | ⟨1, _⟩ => exact gather_axis1 idx b c j
  | ⟨2, _⟩ => exact (gather_axis2 idx b c j).trans (clamp_of_lt h)

/-! ## Indices: the composed index functions of the layout operations, at coordinates -/

/-- The reshape [32, 1, 2048] → [32, 2048, 1] reads entry (b, j, 0) at (b, 0, j). -/
private theorem idx_start0 (b : Fin 32) (j : Fin 2048) (z : Fin 1) :
    idx_main_call3_v5 (ix3 b j z) = ix3 b (0 : Fin 1) j := by
  funext a; refine Fin.ext ?_
  have hb := b.isLt; have hj := j.isLt; have hz := z.isLt
  match a with
  | ⟨0, _⟩ => show ((b.val * 2048 + j.val) * 1 + z.val) / 2048 = b.val; omega
  | ⟨1, _⟩ => rfl
  | ⟨2, _⟩ => show ((b.val * 2048 + j.val) * 1 + z.val) % 2048 = j.val; omega

private theorem idx_start1 (b : Fin 32) (j : Fin 2048) (z : Fin 1) :
    idx_main_call4_v5 (ix3 b j z) = ix3 b (0 : Fin 1) j := by
  funext a; refine Fin.ext ?_
  have hb := b.isLt; have hj := j.isLt; have hz := z.isLt
  match a with
  | ⟨0, _⟩ => show ((b.val * 2048 + j.val) * 1 + z.val) / 2048 = b.val; omega
  | ⟨1, _⟩ => rfl
  | ⟨2, _⟩ => show ((b.val * 2048 + j.val) * 1 + z.val) % 2048 = j.val; omega

/-- The taps laid out as [32, 1, 2048] read (b, 0, j) at (b, j). -/
private theorem idx_tap0 (b : Fin 32) (z : Fin 1) (j : Fin 2048) : idx_main_v16 (ix3 b z j) = ix2 b j := by
  funext a; match a with | ⟨0, _⟩ => rfl | ⟨1, _⟩ => rfl

private theorem idx_tap1 (b : Fin 32) (z : Fin 1) (j : Fin 2048) : idx_main_v18 (ix3 b z j) = ix2 b j := by
  funext a; match a with | ⟨0, _⟩ => rfl | ⟨1, _⟩ => rfl

/-- The transpose reads entry (b, j, c) at (b, c, j). -/
private theorem idx_out (b : Fin 32) (j : Fin 2048) (c : Fin 256) : idx_main_v27 (ix3 b j c) = ix3 b c j := by
  funext a; match a with | ⟨0, _⟩ => rfl | ⟨1, _⟩ => rfl | ⟨2, _⟩ => rfl

/-- A weight laid along the channel axis reads (b, c, j) at (b, j). -/
private theorem idx_w0 (b : Fin 32) (c : Fin 256) (j : Fin 2048) : idx_main_v20 (idx_main_v21 (ix3 b c j)) = ix2 b j := by
  funext a; match a with | ⟨0, _⟩ => rfl | ⟨1, _⟩ => rfl

private theorem idx_w1 (b : Fin 32) (c : Fin 256) (j : Fin 2048) : idx_main_v23 (idx_main_v24 (ix3 b c j)) = ix2 b j := by
  funext a; match a with | ⟨0, _⟩ => rfl | ⟨1, _⟩ => rfl

/-! ## The two takes along the length axis -/

section Takes

variable {F : FTy → Type} [FloatOps F]

/-- The first take's start index at (b, j, 0) is the first tap: the tap is not negative, so the select that would add 8192 to
    a negative index keeps it. -/
private theorem start0_apply (x1 x2 : (⟨S32x2048x1, .f32⟩ : BufTy).Contents (Elt F)) (b : Fin 32) (j : Fin 2048) (z : Fin 1) :
    val_main_call3_v5 (F := F) x1 x2 (ix3 b j z) = val_main_v8 (F := F) x1 x2 (ix2 b j) := by
  rw [val_main_call3_v5_apply, idx_start0, val_main_call3_v4_apply, val_main_call3_v1_apply, val_main_v16_apply, idx_tap0,
    val_main_call3_v0_apply, val_main_call3_c_apply, slt_zero_of_lt (tap0_lt x1 x2 _), select_zero]

/-- Every start index of the first take passes the range test 0 ≤ · ≤ 8191. -/
private theorem mask0_elt (x1 x2 : (⟨S32x2048x1, .f32⟩ : BufTy).Contents (Elt F)) (i : S32x2048x1.Idx) :
    val_main_call3_v11 (F := F) x1 x2 i = 1#1 := by
  obtain ⟨b, j, z, rfl⟩ : ∃ (b : Fin 32) (j : Fin 2048) (z : Fin 1), i = ix3 b j z := ⟨i 0, i 1, i 2, eq_ix3 i⟩
  rw [val_main_call3_v11_apply, val_main_call3_v7_apply, val_main_call3_v10_apply, start0_apply, val_main_call3_v6_apply,
    val_main_call3_c_2_apply, val_main_call3_v9_apply, val_main_call3_v8_apply, val_main_call3_c_1_apply,
    sge_zero_of_lt (tap0_lt x1 x2 _), sle_last_of_lt (tap0_lt x1 x2 _)]
  exact IntOp.andi_eq_one.2 ⟨rfl, rfl⟩

/-- So the mask, the test reduced by "and" over the index vector's axis, is 1 everywhere. -/
private theorem mask0_apply (x1 x2 : (⟨S32x2048x1, .f32⟩ : BufTy).Contents (Elt F)) (i : S32x2048.Idx) :
    val_main_call3_v12 (F := F) x1 x2 i = 1#1 := by
  unfold val_main_call3_v12
  exact reduce_andi_one _ _ _ _ (mask0_elt x1 x2) (fun _ => rfl) i

/-- The first take at (b, c, j): the mask is 1, so it is the gather's value and not the fill value; the gather's start index
    is the first tap, a position of the length axis, so the value is the input at (b, c, first tap). -/
private theorem take0_apply (x0 : (⟨S32x256x8192, .f32⟩ : BufTy).Contents (Elt F)) (x1 x2 : (⟨S32x2048x1, .f32⟩ : BufTy).Contents (Elt F))
    (b : Fin 32) (c : Fin 256) (j : Fin 2048) :
    val_main_v17 (F := F) x0 x1 x2 (ix3 b c j)
      = x0 (ix3 b c ⟨(val_main_v8 (F := F) x1 x2 (ix2 b j) : BitVec 32).toNat, tap0_lt x1 x2 _⟩) := by
  rw [val_main_v17_apply, val_main_call3_v14_apply, mask0_apply, select_one]
  unfold val_main_call3_v13
  rw [gather_read x0 _ b c j (by rw [start0_apply]; exact tap0_lt x1 x2 _)]
  congr 2
  exact Fin.ext (congrArg BitVec.toNat (start0_apply x1 x2 b j 0))

/-- The second take's start index at (b, j, 0) is the second tap. -/
private theorem start1_apply (x1 x2 : (⟨S32x2048x1, .f32⟩ : BufTy).Contents (Elt F)) (b : Fin 32) (j : Fin 2048) (z : Fin 1) :
    val_main_call4_v5 (F := F) x1 x2 (ix3 b j z) = val_main_v11 (F := F) x1 x2 (ix2 b j) := by
  rw [val_main_call4_v5_apply, idx_start1, val_main_call4_v4_apply, val_main_call4_v1_apply, val_main_v18_apply, idx_tap1,
    val_main_call4_v0_apply, val_main_call4_c_apply, slt_zero_of_lt (tap1_lt x1 x2 _), select_zero]

/-- Every start index of the second take passes the range test. -/
private theorem mask1_elt (x1 x2 : (⟨S32x2048x1, .f32⟩ : BufTy).Contents (Elt F)) (i : S32x2048x1.Idx) :
    val_main_call4_v11 (F := F) x1 x2 i = 1#1 := by
  obtain ⟨b, j, z, rfl⟩ : ∃ (b : Fin 32) (j : Fin 2048) (z : Fin 1), i = ix3 b j z := ⟨i 0, i 1, i 2, eq_ix3 i⟩
  rw [val_main_call4_v11_apply, val_main_call4_v7_apply, val_main_call4_v10_apply, start1_apply, val_main_call4_v6_apply,
    val_main_call4_c_2_apply, val_main_call4_v9_apply, val_main_call4_v8_apply, val_main_call4_c_1_apply,
    sge_zero_of_lt (tap1_lt x1 x2 _), sle_last_of_lt (tap1_lt x1 x2 _)]
  exact IntOp.andi_eq_one.2 ⟨rfl, rfl⟩

/-- Its mask is 1 everywhere. -/
private theorem mask1_apply (x1 x2 : (⟨S32x2048x1, .f32⟩ : BufTy).Contents (Elt F)) (i : S32x2048.Idx) :
    val_main_call4_v12 (F := F) x1 x2 i = 1#1 := by
  unfold val_main_call4_v12
  exact reduce_andi_one _ _ _ _ (mask1_elt x1 x2) (fun _ => rfl) i

/-- The second take at (b, c, j) is the input at (b, c, second tap). -/
private theorem take1_apply (x0 : (⟨S32x256x8192, .f32⟩ : BufTy).Contents (Elt F)) (x1 x2 : (⟨S32x2048x1, .f32⟩ : BufTy).Contents (Elt F))
    (b : Fin 32) (c : Fin 256) (j : Fin 2048) :
    val_main_v19 (F := F) x0 x1 x2 (ix3 b c j)
      = x0 (ix3 b c ⟨(val_main_v11 (F := F) x1 x2 (ix2 b j) : BitVec 32).toNat, tap1_lt x1 x2 _⟩) := by
  rw [val_main_v19_apply, val_main_call4_v14_apply, mask1_apply, select_one]
  unfold val_main_call4_v13
  rw [gather_read x0 _ b c j (by rw [start1_apply]; exact tap1_lt x1 x2 _)]
  congr 2
  exact Fin.ext (congrArg BitVec.toNat (start1_apply x1 x2 b j 0))

end Takes

/-! ## The result at an entry -/

/-- Entry (b, j, c) of the result: the transpose reads (b, c, j) of the sum of the two products, each a weight at (b, j) laid
    along the channel axis times a take at (b, c, j); on the extended reals the product and the sum are * and +. -/
theorem ref_apply (x0 : (⟨S32x256x8192, .f32⟩ : BufTy).Contents (Elt Ideal)) (x1 x2 : (⟨S32x2048x1, .f32⟩ : BufTy).Contents (Elt Ideal))
    (b : Fin 32) (j : Fin 2048) (c : Fin 256) :
    (val_main_v27 (F := Ideal) x0 x1 x2 (ix3 b j c) : EReal)
      = (val_main_v15 (F := Ideal) x1 x2 (ix2 b j) : EReal) * (x0 (ix3 b c ⟨(val_main_v8 (F := Ideal) x1 x2 (ix2 b j) : BitVec 32).toNat, tap0_lt x1 x2 _⟩) : EReal)
        + (val_main_v13 (F := Ideal) x1 x2 (ix2 b j) : EReal) * (x0 (ix3 b c ⟨(val_main_v11 (F := Ideal) x1 x2 (ix2 b j) : BitVec 32).toNat, tap1_lt x1 x2 _⟩) : EReal) := by
  rw [val_main_v27_apply, idx_out, val_main_v26_apply, val_main_v22_apply, val_main_v25_apply, val_main_v21_apply, val_main_v20_apply,
    idx_w0, val_main_v24_apply, val_main_v23_apply, idx_w1, take0_apply, take1_apply]
  rfl

end Cert.Sampler

end
-- ==== Proof.OneHotSum.lean ====
/-
  The weighted one-hot row against a row of the input collapses to the two taps.

  For taps a, b below 8192, real weights wa, wb and a row x of real entries, the eight tile sums added onto zero are
  wa * x a + wb * x b on the extended reals. Where a = b the one-hot entry at that position is wa + wb, and
  (wa + wb) * x = wa * x + wb * x needs the three factors real: distributivity fails at the infinities.
-/
import proofs.«149111_j50354196579100_1_alg».proof.Proof.Spec

noncomputable section

namespace Cert.Sampler

/-- The inclusion of the reals into the extended reals commutes with finite sums. -/
private theorem coe_sum {ι : Type} (t : Finset ι) (f : ι → ℝ) :
    ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-- Position k of tile s, for s < 8, is the word of value s * 1024 + k: nothing wraps below 2 ^ 32. -/
private theorem lpos_toNat (s : ℕ) (hs : s < 8) (k : Fin 1024) : (lpos s k).toNat = s * 1024 + k.val := by
  have hk := k.isLt
  unfold lpos
  rw [BitVec.toNat_add, BitVec.toNat_mul, BitVec.toNat_ofNat, BitVec.toNat_ofNat, BitVec.toNat_ofNat]
  omega

/-- A tap sits at position k of tile s exactly when its value is s * 1024 + k. -/
private theorem eq_lpos_iff (a : BitVec 32) (s : ℕ) (hs : s < 8) (k : Fin 1024) :
    a = lpos s k ↔ a.toNat = s * 1024 + k.val := by
  rw [← BitVec.toNat_inj, lpos_toNat s hs k]

/-- The position read by tile s at offset k lies inside the row. -/
private theorem idx_lt (s : ℕ) (k : Fin 1024) : (s % 8) * 1024 + k.val < 8192 := by
  have := k.isLt
  have := Nat.mod_lt s (show 0 < 8 by decide)
  omega

/-- One tap over the reals: across the eight tiles exactly one position carries the weight, the tap's own. -/
private theorem tap_sum (a : BitVec 32) (ha : a.toNat < 8192) (w : ℝ) (r : Fin 8192 → ℝ) :
    ∑ s ∈ Finset.range 8, ∑ k : Fin 1024,
        (if a = lpos s k then w else 0) * r ⟨(s % 8) * 1024 + k.val, idx_lt s k⟩
      = w * r ⟨a.toNat, ha⟩ := by
  have hq : a.toNat / 1024 < 8 := by omega
  rw [Finset.sum_eq_single (a.toNat / 1024)]
  · rw [Finset.sum_eq_single (⟨a.toNat % 1024, Nat.mod_lt _ (by decide)⟩ : Fin 1024)]
    · rw [if_pos ((eq_lpos_iff a _ hq _).mpr (by simp only []; omega))]
      congr 2
      apply Fin.ext
      simp only []
      omega
    · intro k _ hk
      rw [if_neg, zero_mul]
      intro h
      apply hk
      have := (eq_lpos_iff a _ hq k).mp h
      apply Fin.ext
      simp only []
      omega
    · intro h
      exact absurd (Finset.mem_univ _) h
  · intro s hs hne
    have hs8 : s < 8 := Finset.mem_range.mp hs
    apply Finset.sum_eq_zero
    intro k _
    rw [if_neg, zero_mul]
    intro h
    have := (eq_lpos_iff a s hs8 k).mp h
    have := k.isLt
    apply hne
    omega
  · intro h
    exact absurd (Finset.mem_range.mpr hq) h

/-- Both taps over the reals: the two one-hot rows are summed apart, which also covers a = b. -/
private theorem row_real (a b : BitVec 32) (ha : a.toNat < 8192) (hb : b.toNat < 8192) (wa wb : ℝ)
    (r : Fin 8192 → ℝ) :
    ∑ s ∈ Finset.range 8, ∑ k : Fin 1024,
        ((if a = lpos s k then wa else 0) + (if b = lpos s k then wb else 0))
          * r ⟨(s % 8) * 1024 + k.val, idx_lt s k⟩
      = wa * r ⟨a.toNat, ha⟩ + wb * r ⟨b.toNat, hb⟩ := by
  simp only [add_mul, Finset.sum_add_distrib]
  rw [tap_sum a ha wa r, tap_sum b hb wb r]

/-- A one-hot entry with real weights is real. -/
private theorem hot_coe (a b : BitVec 32) (wa wb : ℝ) (l : BitVec 32) :
    hot a b (wa : EReal) (wb : EReal) l
      = (((if a = l then wa else 0) + (if b = l then wb else 0) : ℝ) : EReal) := by
  unfold hot
  rw [EReal.coe_add]
  congr 1
  · split <;> simp
  · split <;> simp

/-- A tile's sum against real entries is the real sum. -/
private theorem tileSum_coe (s : ℕ) (a b : BitVec 32) (wa wb : ℝ) (y : Fin 1024 → ℝ) :
    tileSum s a b (wa : EReal) (wb : EReal) (fun k => (y k : EReal))
      = ((∑ k : Fin 1024,
          ((if a = lpos s k then wa else 0) + (if b = lpos s k then wb else 0)) * y k : ℝ) : EReal) := by
  unfold tileSum
  rw [coe_sum]
  apply Finset.sum_congr rfl
  intro k _
  rw [hot_coe, EReal.coe_mul]

theorem rowSum_eq (a b : BitVec 32) (ha : a.toNat < 8192) (hb : b.toNat < 8192) (wa wb : ℝ) (x : Fin 8192 → EReal)
    (hx : ∀ l, ∃ r : ℝ, x l = (r : EReal)) :
    rowSum a b (wa : EReal) (wb : EReal) x = (wa : EReal) * x ⟨a.toNat, ha⟩ + (wb : EReal) * x ⟨b.toNat, hb⟩ := by
  choose r hr using hx
  obtain rfl : x = fun l => (r l : EReal) := funext hr
  unfold rowSum
  simp only [tileSum_coe]
  rw [← coe_sum, zero_add, ← EReal.coe_mul, ← EReal.coe_mul, ← EReal.coe_add]
  exact congrArg _ (row_real a b ha hb wa wb r)

end Cert.Sampler

end
-- ==== Proof.Finite.lean ====
/-
  Under the precondition every entry of the input array is a real number: the precondition's first conjunct says
  |x| < +inf at every entry, which on the extended reals leaves out exactly the two infinities.
-/
import proofs.«149111_j50354196579100_1_alg».proof.Pre_finite_inputs
import Idealize.ShloMosaic.PureOps.Ideal
import Idealize.ShloMosaic.Lib.ReduceAll
import Idealize.ShloMosaic.Lib.ValueIdx

noncomputable section

namespace Cert.Sampler

open Idealize.ShloMosaic Idealize.ShloMosaic.ValueIdx

/-- On the extended reals |x| = max x (-x) is +inf at both infinities, so |x| < +inf leaves only the reals. -/
private theorem real_of_abs_lt_top (x : EReal) (hx : max x (-x) < ⊤) : ∃ r : ℝ, x = (r : EReal) := by
  induction x using EReal.rec with
  | bot => simp at hx
  | coe r => exact ⟨r, rfl⟩
  | top => simp at hx

/-- The f32 pattern with exponent all ones and zero fraction, sign clear, denotes +inf. -/
private theorem inf_bits : Ideal.ofBits .f32 0x7F800000#32 = ⊤ := by
  simp [Ideal.ofBits, Ideal.ieee]

/-- The element fact: the ordered comparison |x| < +inf answering 1 says x is a real number. -/
private theorem real_of_cmp (x : EReal)
    (hx : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  have hx' : Ideal.cmp .olt (max x (-x)) (Ideal.ofBits .f32 0x7F800000#32) = 1#1 := hx
  rw [inf_bits] at hx'
  by_contra hn
  have h0 : Ideal.cmp .olt (max x (-x)) ⊤ = 0#1 := by simp [Ideal.cmp, hn]
  rw [h0] at hx'
  exact absurd hx' (by decide)

theorem input_real [hPre : Cert.Pre_finite_inputs.Facts]
    (x0 : FVec Ideal Cert.Pre_finite_inputs.S32x256x8192 .f32) (x1 x2 : FVec Ideal Cert.Pre_finite_inputs.S32x2048x1 .f32)
    (h : Cert.Pre_finite_inputs.fn (F := Ideal) x0 x1 x2 = fun _ => 1#1) (i : Cert.Pre_finite_inputs.S32x256x8192.Idx) :
    ∃ r : ℝ, (x0 i : EReal) = (r : EReal) := by
  -- the claim at the one index of the rank-0 result, with the printed lets in view
  have h0 := congrFun h ValueIdx.ix0
  dsimp only [Cert.Pre_finite_inputs.fn] at h0
  -- the result is (all0 ∧ all1) ∧ all2; keep the first input's conjunct
  have h1 := (IntOp.andi_eq_one.1 (IntOp.andi_eq_one.1 h0).1).1
  -- the rank-0 shape has exactly one index (the empty tuple of coordinates)
  haveI : Subsingleton Cert.Pre_finite_inputs.S_.Idx := ⟨fun a b => funext fun d => d.elim0⟩
  -- a reduction by "and" over all three axes that came out 1 met a 1 at every entry
  have h2 := Host.reduce_andi_all _ _ _ _ _ h1 i
  exact real_of_cmp (x0 i) h2

end Cert.Sampler

end
-- ==== Proof.lean ====
/-
  A 1-D linear-interpolation sampler: for each batch b and sampling point j the location loc = clip(point + offset, 0, 8191)
  has taps idx0 = floor loc, idx1 = ceil loc (clamped to the length axis) and weights w1 = loc - idx0, w0 = 1 - w1, and the
  result is out[b, j, c] = w0 * input[b, c, idx0] + w1 * input[b, c, idx1].

  The reference gathers the two taps along the length axis. The kernel never gathers: for each batch it builds, tile by tile
  over the length axis, the weighted one-hot rows (w0 where the position is idx0, plus w1 where it is idx1, else 0), multiplies
  them against the input tile, and accumulates the eight tiles' products, zeroing the accumulator at a batch's first tile and
  writing it out at its last. At the ideal values the changes of float format are the identity and the products are exact sums,
  so the kernel's entry is the sum over all 8192 positions of the one-hot weight times the input, which collapses to the
  reference's two terms: taps and weights are the same host computation in both programs, the taps lie in 0 .. 8191 by the
  integer clamp, and the collapse (also where idx0 = idx1, by distributivity) holds because the weights are real numbers and
  so is the input under the precondition.
-/
import proofs.«149111_j50354196579100_1_alg».proof.Defs
import proofs.«149111_j50354196579100_1_alg».proof.Proof.Gen.Kernel
import proofs.«149111_j50354196579100_1_alg».proof.Proof.Gen.Kernel.Frame
import proofs.«149111_j50354196579100_1_alg».proof.Proof.Gen.KernelIdeal
import proofs.«149111_j50354196579100_1_alg».proof.Proof.Gen.KernelIdeal.Frame
import proofs.«149111_j50354196579100_1_alg».proof.Proof.Gen.ReferenceIdeal
import proofs.«149111_j50354196579100_1_alg».proof.Proof.Gen.Pre_finite_inputs
import proofs.«149111_j50354196579100_1_alg».proof.Proof.RefRun
import proofs.«149111_j50354196579100_1_alg».proof.Proof.RefRead
import proofs.«149111_j50354196579100_1_alg».proof.Proof.KernelValue
import proofs.«149111_j50354196579100_1_alg».proof.Proof.RefValue
import proofs.«149111_j50354196579100_1_alg».proof.Proof.OneHotSum
import proofs.«149111_j50354196579100_1_alg».proof.Proof.HostChain
import proofs.«149111_j50354196579100_1_alg».proof.Proof.Finite
import Idealize.ShloMosaic.Adequacy
import Idealize.ShloMosaic.Init

noncomputable section

namespace Cert.Proof

open Idealize.ShloMosaic Idealize.SL.Sem Idealize.ShloMosaic.ValueIdx Cert.Sampler

/-! ## The frames -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-! ## The two results are one function of the arguments -/

/-- The row sum collapses to the two taps for real weights given as extended reals known to be real. -/
theorem collapse (a b : BitVec 32) (ha : a.toNat < 8192) (hb : b.toNat < 8192) (wa wb : EReal)
    (hwa : ∃ r : ℝ, wa = (r : EReal)) (hwb : ∃ r : ℝ, wb = (r : EReal)) (x : Fin 8192 → EReal)
    (hx : ∀ l, ∃ r : ℝ, x l = (r : EReal)) :
    rowSum a b wa wb x = wa * x ⟨a.toNat, ha⟩ + wb * x ⟨b.toNat, hb⟩ := by
  obtain ⟨r0, rfl⟩ := hwa
  obtain ⟨r1, rfl⟩ := hwb
  exact rowSum_eq a b ha hb r0 r1 x hx

/-- Entry by entry the kernel's row sum is the reference's two-tap interpolation: the taps are positions of the length axis, the
    weights are real, the input is real. -/
theorem result_eq (x0 : (⟨Cert.ReferenceIdeal.S32x256x8192, .f32⟩ : BufTy).Contents (Elt Ideal)) (x1 x2 : (⟨Cert.ReferenceIdeal.S32x2048x1, .f32⟩ : BufTy).Contents (Elt Ideal))
    (hfin : ∀ i, ∃ r : ℝ, (x0 i : EReal) = (r : EReal)) :
    Gk x0 (Cert.ReferenceIdeal.ReadP.val_main_v8 (F := Ideal) x1 x2) (Cert.ReferenceIdeal.ReadP.val_main_v11 (F := Ideal) x1 x2)
        (Cert.ReferenceIdeal.ReadP.val_main_v15 (F := Ideal) x1 x2) (Cert.ReferenceIdeal.ReadP.val_main_v13 (F := Ideal) x1 x2)
      = Cert.ReferenceIdeal.ReadP.val_main_v27 (F := Ideal) x0 x1 x2 := by
  funext y
  obtain ⟨b, j, c, rfl⟩ : ∃ (b : Fin 32) (j : Fin 2048) (c : Fin 256), y = ix3 b j c := ⟨y 0, y 1, y 2, eq_ix3 y⟩
  refine (Gk_apply _ _ _ _ _ b j c).trans (Eq.trans ?_ (ref_apply x0 x1 x2 b j c).symm)
  exact collapse _ _ (tap0_lt (F := Ideal) x1 x2 (ix2 b j)) (tap1_lt (F := Ideal) x1 x2 (ix2 b j)) _ _
    (w0_real x1 x2 (ix2 b j)) (w1_real x1 x2 (ix2 b j)) (fun l => x0 (ix3 b c l)) (fun l => hfin _)

/-! ## The value claim -/

/-- From memories that agree on the arguments the kernel's run ends with the row sums (the accumulated tiles) and the
    reference's with the two-tap interpolation: one function of the arguments, the input being real under the precondition. -/
theorem algebraic : Cert.algebraic_KernelIdeal_ReferenceIdeal := by
  intro m ρ m' ρ' hpre hagree
  refine ⟨fun c => GkOf m c, kernel_run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v27_eq, (hagree c).1, (hagree c).2.1, (hagree c).2.2]
  exact (result_eq _ _ _ (fun i => input_real _ _ _ (hpre c) i)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
